-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S15000x256 : S_.BroadcastsInDim S15000x256 (![] : Fin 0 → Fin S15000x256.rank)
  reducesTo_S15000x256_S_d0_1 : S15000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S20000x256 .f32) (main_arg1 : FVec F S15000x256 .f32) (main_arg2 : FVec F S15000x256 .f32) (main_arg3 : FVec F S256x256 .f32) (main_arg4 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S15000x256 .f32 := Host.absf main_arg1
  let main_cst_0 : FVec F S_ .f32 := constant S_ .f32 0x7F800000#32
  let main_v5 : FVec F S15000x256 .f32 := broadcastInDim S15000x256 ![] bcast_S_S15000x256 main_cst_0
  let main_v6 : IVec S15000x256 1 := cmpf .olt main_v4 main_v5
  let main_c_1 : IVec S_ 1 := constantI S_ 1 1#1
  let main_v7 : IVec S_ 1 := (fun x v => Host.reduce IntOp.andi x v reducesTo_S15000x256_S_d0_1 h_S_) main_v6 main_c_1
  let main_v8 : IVec S_ 1 := andi main_v3 main_v7
  let main_v9 : FVec F S15000x256 .f32 := Host.absf main_arg2
  let main_cst_2 : FVec F S_ .f32 := constant S_ .f32 0x7F800000#32
  let main_v10 : FVec F S15000x256 .f32 := broadcastInDim S15000x256 ![] bcast_S_S15000x256 main_cst_2
  let main_v11 : IVec S15000x256 1 := cmpf .olt main_v9 main_v10
  let main_c_3 : IVec S_ 1 := constantI S_ 1 1#1
  let main_v12 : IVec S_ 1 := (fun x v => Host.reduce IntOp.andi x v reducesTo_S15000x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S1x256 : Shape := ⟨2, ![1, 256]⟩
abbrev S1x1 : Shape := ⟨2, ![1, 1]⟩
abbrev S800x256 : Shape := ⟨2, ![800, 256]⟩
abbrev S600x256 : Shape := ⟨2, ![600, 256]⟩
abbrev S1x800 : Shape := ⟨2, ![1, 800]⟩
abbrev S1x600 : Shape := ⟨2, ![1, 600]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S20000x256, .f32⟩
  | .hbm, ⟨1, _⟩ => ⟨S15000x256, .f32⟩
  | .hbm, ⟨2, _⟩ => ⟨S15000x256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1x1, .f32⟩
  | .hbm, ⟨7, _⟩ => ⟨S1, .f32⟩
  | .local _ .vmem, ⟨0, _⟩ => ⟨S800x256, .f32⟩
  | .local _ .vmem, ⟨1, _⟩ => ⟨S800x256, .f32⟩
  | .local _ .vmem, ⟨2, _⟩ => ⟨S600x256, .f32⟩
  | .local _ .vmem, ⟨3, _⟩ => ⟨S600x256, .f32⟩
  | .local _ .vmem, ⟨4, _⟩ => ⟨S600x256, .f32⟩
  | .local _ .vmem, ⟨5, _⟩ => ⟨S600x256, .f32⟩
  | .local _ .vmem, ⟨6, _⟩ => ⟨S256x256, .f32⟩
  | .local _ .vmem, ⟨7, _⟩ => ⟨S1x256, .f32⟩
  | .local _ .vmem, ⟨8, _⟩ => ⟨S1x1, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v78 : BitVec 1 := Scalar.cmpi .eq arg0 c24_i32
  let v79 : BitVec 32 := Scalar.extui v78
  let c0_i32_36 : BitVec 32 := 0#32
  let v80 : BitVec 1 := Scalar.cmpi .ne v79 c0_i32_36
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S800x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S800x256_S800x256_0_0 : ∀ a, (![0, 0] : Fin 2 → Nat) a + S800x256.size a ≤ S800x256.size a
  h_S800x256 : 0 < S800x256.numel
  broadcasts_S1x256_S800x256 : S1x256.Broadcasts S800x256
  reduces_S800x256_S256 : S800x256.Reduces [0] S256
  inb_S600x256_S600x256_0_0 : ∀ a, (![0, 0] : Fin 2 → Nat) a + S600x256.size a ≤ S600x256.size a
  h_S600x256 : 0 < S600x256.numel
  broadcasts_S1x256_S600x256 : S1x256.Broadcasts S600x256
  reduces_S600x256_S256 : S600x256.Reduces [0] S256
  shapeCasts_S1x256_S1x1x256 : S1x256.ShapeCasts S1x1x256
  reduces_S1x1x256_S1 : S1x1x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1 : S1x1.ShapeCasts S1
  dot_S800x256_S256x256_S800x256_1_0_0_1_n_n_wf : DotDims.WF S800x256 S256x256 S800x256 [1] [0] [0] [1] [] []
  dot_S1x800_S800x256_S1x256_1_0_0_1_n_n_wf : DotDims.WF S1x800 S800x256 S1x256 [1] [0] [0] [1] [] []
  dot_S600x256_S256x256_S600x256_1_0_0_1_n_n_wf : DotDims.WF S600x256 S256x256 S600x256 [1] [0] [0] [1] [] []
  dot_S1x600_S600x256_S1x256_1_0_0_1_n_n_wf : DotDims.WF S1x600 S600x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x256.size a ≤ S20000x256.size a
  hwx0_0 : ∀ i : grid0.Coords, EltTy.bits .f32 = 32 ∨ (Rect.block (s := S20000x256) S800x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x256.size a ≤ S15000x256.size a
  hwx0_1 : ∀ i : grid0.Coords, EltTy.bits .f32 = 32 ∨ (Rect.block (s := S15000x256) S600x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S600x256.size a ≤ S15000x256.size a
  hwx0_2 : ∀ i : grid0.Coords, EltTy.bits .f32 = 32 ∨ (Rect.block (s := S15000x256) S600x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S800x256_S256x256_S800x256_1_0_0_1_n_n : DotDims S800x256 S256x256 S800x256 where
  lhsContracting := [1]
  rhsContracting := [0]
  lhsNonContracting := [0]
  rhsNonContracting := [1]
  lhsBatch := []
  rhsBatch := []
  wf := dot_S800x256_S256x256_S800x256_1_0_0_1_n_n_wf
def dot_S1x800_S800x256_S1x256_1_0_0_1_n_n : DotDims S1x800 S800x256 S1x256 where
  lhsContracting := [1]
  rhsContracting := [0]
  lhsNonContracting := [0]
  rhsNonContracting := [1]
  lhsBatch := []
  rhsBatch := []
  wf := dot_S1x800_S800x256_S1x256_1_0_0_1_n_n_wf
def dot_S600x256_S256x256_S600x256_1_0_0_1_n_n : DotDims S600x256 S256x256 S600x256 where
  lhsContracting := [1]
  rhsContracting := [0]
  lhsNonContracting := [0]
  rhsNonContracting := [1]
  lhsBatch := []
  rhsBatch := []
  wf := dot_S600x256_S256x256_S600x256_1_0_0_1_n_n_wf
def dot_S1x600_S600x256_S1x256_1_0_0_1_n_n : DotDims S1x600 S600x256 S1x256 where
  lhsContracting := [1]
  rhsContracting := [0]
  lhsNonContracting := [0]
  rhsNonContracting := [1]
  lhsBatch := []
  rhsBatch := []
  wf := dot_S1x600_S600x256_S1x256_1_0_0_1_n_n_wf

abbrev win0_0 : Pipeline.Window sig grid0 :=
  Pipeline.Window.ofSpec (Memref.whole main_arg0) S800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S600x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S600x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S20000x256 : Shape := ⟨2, ![20000, 256]⟩
abbrev S15000x256 : Shape := ⟨2, ![15000, 256]⟩
abbrev S256x256 : Shape := ⟨2, ![256, 256]⟩
abbrev S256 : Shape := ⟨1, ![256]⟩
abbrev S50000x256 : Shape := ⟨2, ![50000, 256]⟩
abbrev S1x256 : Shape := ⟨2, ![1, 256]⟩
abbrev S_ : Shape := ⟨0, ![]⟩
abbrev S1 : Shape := ⟨1, ![1]⟩

abbrev nBuf : Space → Nat
  | .hbm => 30
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S15000x256, .f32⟩
  | .hbm, ⟨2, _⟩ => ⟨S15000x256, .f32⟩
  | .hbm, ⟨3, _⟩ => ⟨S256x256, .f32⟩
  | .hbm, ⟨4, _⟩ => ⟨S256, .f32⟩
  | .hbm, ⟨5, _⟩ => ⟨S50000x256, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S_, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S256, .f32⟩
  | .hbm, ⟨21, _⟩ => ⟨S1x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S_, .f32⟩
  | .hbm, ⟨29, _⟩ => ⟨S1, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  concatenates_S20000x256_S15000x256_S15000x256_S50000x256_d0 : Shape.Concatenates [S20000x256, S15000x256, S15000x256] S50000x256 0
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  reducesTo_S1x256_S1_d1 : S1x256.ReducesTo [1] S1
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Step.lean ====
/-
  What one grid step does to the three carried rows, as functions of what the step loads.

  A step loads the running maximum m, the running normaliser z and the running weighted feature sum s (one row of 256
  columns each), the weights, the bias row, and one tile of each feature array; it meets the three tiles in turn, each
  time raising the maximum to cover the tile's logits, rescaling z and s to the new maximum and adding the tile's sums;
  it stores the three rows back. The last step also stores the sum over the columns of s / z.
-/
import proofs.«132678_g3659312136369_retrytranche1_448_5_alg».proof.Proof.Gen.KernelIdeal.Skeleton

noncomputable section

namespace Cert.KernelIdeal.Step

open Cert.KernelIdeal Cert.KernelIdeal.Gen Idealize.ShloMosaic

variable {F : FTy → Type} [FloatOps F]

/-- The running maximum a step leaves: over the carried one and the three tiles' column maxima. -/
def stepM (m : Vec F S1x256 .f32) (w : Vec F S256x256 .f32) (b : Vec F S1x256 .f32)
    (x0 : Vec F S800x256 .f32) (x1 x2 : Vec F S600x256 .f32) : FVec F S1x256 .f32 :=
  k0_pay27 w (k0_pay6 b) (k0_pay8 m w b x0) (k0_pay15 w b x1) x2

/-- The running normaliser a step leaves. -/
def stepZ (m z : Vec F S1x256 .f32) (w : Vec F S256x256 .f32) (b : Vec F S1x256 .f32)
    (x0 : Vec F S800x256 .f32) (x1 x2 : Vec F S600x256 .f32) : FVec F S1x256 .f32 :=
  k0_pay28 w (k0_pay6 b) (k0_pay8 m w b x0) (k0_pay12 m z w b x0) (k0_pay14 w b x1) (k0_pay15 w b x1) x2

/-- The running weighted feature sum a step leaves. -/
def stepS (m s : Vec F S1x256 .f32) (w : Vec F S256x256 .f32) (b : Vec F S1x256 .f32)
    (x0 : Vec F S800x256 .f32) (x1 x2 : Vec F S600x256 .f32) : FVec F S1x256 .f32 :=
  k0_pay1 (k0_pay26 w (k0_pay6 b) (k0_pay8 m w b x0) (k0_pay13 m s w b x0) x1 (k0_pay14 w b x1) (k0_pay15 w b x1) x2)

/-- What the last step stores into the result block: the sum over the columns of s / z. -/
def outV (m z s : Vec F S1x256 .f32) (w : Vec F S256x256 .f32) (b : Vec F S1x256 .f32)
    (x0 : Vec F S800x256 .f32) (x1 x2 : Vec F S600x256 .f32) : FVec F S1x1 .f32 :=
  k0_pay2 (k0_pay25 w (k0_pay6 b) (k0_pay8 m w b x0) (k0_pay12 m z w b x0) (k0_pay14 w b x1) (k0_pay15 w b x1) x2)
    (k0_pay26 w (k0_pay6 b) (k0_pay8 m w b x0) (k0_pay13 m s w b x0) x1 (k0_pay14 w b x1) (k0_pay15 w b x1) x2)

end Cert.KernelIdeal.Step

end
-- ==== Proof.Pieces.lean ====
/-
  What each kind of grid step leaves in the three carried rows and in the result block, as values.

  A step that is neither first nor last loads the carried rows, and leaves the step functions of them and of its
  blocks. The last step does the same and also stores the sum over the columns of s / z into the result block. The
  first step first fills the carried rows with minus infinity, zero and zero, so it leaves the step functions of
  those constant rows.
-/
import proofs.«132678_g3659312136369_retrytranche1_448_5_alg».proof.Proof.Gen.KernelIdeal.Frame
import proofs.«132678_g3659312136369_retrytranche1_448_5_alg».proof.Proof.Step
import Idealize.ShloMosaic.Lib.Pipeline.Value
import Idealize.ShloMosaic.Lib.Tactic

noncomputable section

namespace Cert.KernelIdeal.Pieces

open Cert.KernelIdeal Cert.KernelIdeal.Gen Cert.KernelIdeal.Step Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords) (arg1 : Memref sig .tc .vmem S800x256 .f32) (harg1 : arg1.IsWhole) (arg2 : Memref sig .tc .vmem S600x256 .f32) (harg2 : arg2.IsWhole) (arg3 : Memref sig .tc .vmem S600x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole)
variable (x0 : Vec F S800x256 .f32) (x1 x2 : Vec F S600x256 .f32) (x3 : Vec F S256x256 .f32) (x4 : Vec F S1x256 .f32) (xs0 xs1 xs2 : Vec F S1x256 .f32)

/-! ## A step that is neither first nor last -/

theorem sout_B_0 (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 xs0 xs1 xs2 = stepM xs0 x3 x4 x0 x1 x2 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_B_1 (hc0 : ¬cond0_0 i) (hc1 : ¬cond0_1 i) :
    sout0_B_1 c i arg1 harg1 arg2 harg2 arg3 harg3 arg4 harg4 arg5 harg5 arg6 harg6 arg7 harg7 arg8 harg8 arg9 harg9 hc0 hc1 x0 x1 x2 x3 x4 xs0 xs1 xs2 = stepZ xs0 xs1 x3 x4 x0 x1 x2 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_B_2 (hc0 : ¬cond0_0 i) (hc1 : ¬cond0_1 i) :
    sout0_B_2 c i arg1 harg1 arg2 harg2 arg3 harg3 arg4 harg4 arg5 harg5 arg6 harg6 arg7 harg7 arg8 harg8 arg9 harg9 hc0 hc1 x0 x1 x2 x3 x4 xs0 xs1 xs2 = stepS xs0 xs2 x3 x4 x0 x1 x2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

/-! ## The last step -/

theorem sout_C_0 (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 xs0 xs1 xs2 = stepM xs0 x3 x4 x0 x1 x2 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_C_1 (hc0 : ¬cond0_0 i) (hc1 : cond0_1 i) :
    sout0_C_1 c i arg1 harg1 arg2 harg2 arg3 harg3 arg4 harg4 arg5 harg5 arg6 harg6 arg7 harg7 arg8 harg8 arg9 harg9 hc0 hc1 x0 x1 x2 x3 x4 xs0 xs1 xs2 = stepZ xs0 xs1 x3 x4 x0 x1 x2 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_C_2 (hc0 : ¬cond0_0 i) (hc1 : cond0_1 i) :
    sout0_C_2 c i arg1 harg1 arg2 harg2 arg3 harg3 arg4 harg4 arg5 harg5 arg6 harg6 arg7 harg7 arg8 harg8 arg9 harg9 hc0 hc1 x0 x1 x2 x3 x4 xs0 xs1 xs2 = stepS xs0 xs2 x3 x4 x0 x1 x2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem out_C_5 (hc0 : ¬cond0_0 i) (hc1 : cond0_1 i) :
    out0_C_5 c i arg1 harg1 arg2 harg2 arg3 harg3 arg4 harg4 arg5 harg5 arg6 harg6 arg7 harg7 arg8 harg8 arg9 harg9 hc0 hc1 x0 x1 x2 x3 x4 xs0 xs1 xs2 = outV xs0 xs1 xs2 x3 x4 x0 x1 x2 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

/-! ## The first step -/

theorem sout_A_0 (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 = stepM (k0_pay3 (F := F)) x3 x4 x0 x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readAt_eq_ld, View.readCov_unit_zero (S := S1x256) _ hz, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_A_1 (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4 = stepZ (k0_pay3 (F := F)) (k0_pay4 (F := F)) x3 x4 x0 x1 x2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readAt_eq_ld, View.readCov_unit_zero (S := S1x256) _ hz, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

theorem sout_A_2 (hc0 : cond0_0 i) (hc1 : ¬cond0_1 i) :
    sout0_A_2 c i arg1 harg1 arg2 harg2 arg3 harg3 arg4 harg4 arg5 harg5 arg6 harg6 arg7 harg7 arg8 harg8 arg9 harg9 hc0 hc1 x0 x1 x2 x3 x4 = stepS (k0_pay3 (F := F)) (k0_pay5 (F := F)) x3 x4 x0 x1 x2 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x256) hz]
  simp only [View.readAt_eq_ld, View.readCov_unit_zero (S := S1x256) _ hz, harg1.read_unread, harg2.read_unread, harg3.read_unread, harg4.read_unread, harg5.read_unread, harg6.read_unread, harg7.read_unread, harg8.read_unread, harg9.read_unread, View.ld_unit_zero (S := S800x256) hz, View.ld_unit_zero (S := S600x256) hz, View.ld_unit_zero (S := S256x256) hz, View.ld_unit_zero (S := S1x256) hz, View.ld_unit_zero (S := S1x1) hz]
  rfl

end Cert.KernelIdeal.Pieces

end
-- ==== Proof.Carried.lean ====
/-
  The carried rows point by point.

  After the first grid step the three carried rows hold the step functions of the constant rows (minus infinity, zero,
  zero) and of the step's blocks; after any later step they hold the step functions of what the step before left and of
  the step's blocks; and the last step leaves in the result block the sum over the columns of s / z of the rows it
  leaves.
-/
import proofs.«132678_g3659312136369_retrytranche1_448_5_alg».proof.Proof.Pieces

noncomputable section

namespace Cert.KernelIdeal.Carried

open Cert.KernelIdeal Cert.KernelIdeal.Gen Cert.KernelIdeal.Step Idealize.ShloMosaic Idealize.ShloMosaic.TcCoe Idealize.SL.Sem

variable {F : FTy → Type} [FloatOps F]
variable (m : (ℓ : Loc nD τ sig) → Buf (Elt F) ℓ)

/-- The blocks of a step, at their literal types. -/
abbrev blk0 (c : Dev nD) (t : Fin cfg0.N) : Vec F S800x256 .f32 := iblk m c 0 t
abbrev blk1 (c : Dev nD) (t : Fin cfg0.N) : Vec F S600x256 .f32 := iblk m c 1 t
abbrev blk2 (c : Dev nD) (t : Fin cfg0.N) : Vec F S600x256 .f32 := iblk m c 2 t
abbrev blk3 (c : Dev nD) (t : Fin cfg0.N) : Vec F S256x256 .f32 := iblk m c 3 t
abbrev blk4 (c : Dev nD) (t : Fin cfg0.N) : Vec F S1x256 .f32 := iblk m c 4 t

/-- What the step before step t left in the three carried rows. -/
abbrev prevM (c : Dev nD) (t : Fin cfg0.N) : Vec F S1x256 .f32 := (outsAt0 m c (t.val - 1) (Nat.lt_of_le_of_lt (Nat.sub_le _ _) t.isLt)).2.1
abbrev prevZ (c : Dev nD) (t : Fin cfg0.N) : Vec F S1x256 .f32 := (outsAt0 m c (t.val - 1) (Nat.lt_of_le_of_lt (Nat.sub_le _ _) t.isLt)).2.2.1
abbrev prevS (c : Dev nD) (t : Fin cfg0.N) : Vec F S1x256 .f32 := (outsAt0 m c (t.val - 1) (Nat.lt_of_le_of_lt (Nat.sub_le _ _) t.isLt)).2.2.2

/-- The first step: the step functions of the constant rows. -/
theorem first (c : Dev nD) (t : Fin cfg0.N) (h0 : t.val % 25 = 0) (h1 : ¬t.val % 25 = 24) :
    (outsAt0 m c t.val t.isLt).2.1 = stepM (k0_pay3 (F := F)) (blk3 m c t) (blk4 m c t) (blk0 m c t) (blk1 m c t) (blk2 m c t)
    ∧ (outsAt0 m c t.val t.isLt).2.2.1 = stepZ (k0_pay3 (F := F)) (k0_pay4 (F := F)) (blk3 m c t) (blk4 m c t) (blk0 m c t) (blk1 m c t) (blk2 m c t)
    ∧ (outsAt0 m c t.val t.isLt).2.2.2 = stepS (k0_pay3 (F := F)) (k0_pay5 (F := F)) (blk3 m c t) (blk4 m c t) (blk0 m c t) (blk1 m c t) (blk2 m c t) := by
  rw [outsAt0_A m c t h0 h1]
  dsimp only
  exact ⟨Pieces.sout_A_0 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (hc0 := (hcond0_0 t).mpr h0) (hc1 := fun h => h1 ((hcond0_1 t).mp h)),
    Pieces.sout_A_1 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (hc0 := (hcond0_0 t).mpr h0) (hc1 := fun h => h1 ((hcond0_1 t).mp h)),
    Pieces.sout_A_2 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (hc0 := (hcond0_0 t).mpr h0) (hc1 := fun h => h1 ((hcond0_1 t).mp h))⟩

/-- A later step: the step functions of what the step before left. -/
theorem later (c : Dev nD) (t : Fin cfg0.N) (h0 : ¬t.val % 25 = 0) :
    (outsAt0 m c t.val t.isLt).2.1 = stepM (prevM m c t) (blk3 m c t) (blk4 m c t) (blk0 m c t) (blk1 m c t) (blk2 m c t)
    ∧ (outsAt0 m c t.val t.isLt).2.2.1 = stepZ (prevM m c t) (prevZ m c t) (blk3 m c t) (blk4 m c t) (blk0 m c t) (blk1 m c t) (blk2 m c t)
    ∧ (outsAt0 m c t.val t.isLt).2.2.2 = stepS (prevM m c t) (prevS m c t) (blk3 m c t) (blk4 m c t) (blk0 m c t) (blk1 m c t) (blk2 m c t) := by
  by_cases h1 : t.val % 25 = 24
  · rw [outsAt0_C m c t h0 h1]
    dsimp only
    exact ⟨Pieces.sout_C_0 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1),
      Pieces.sout_C_1 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1),
      Pieces.sout_C_2 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)⟩
  · rw [outsAt0_B m c t h0 h1]
    dsimp only
    exact ⟨Pieces.sout_B_0 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h)),
      Pieces.sout_B_1 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h)),
      Pieces.sout_B_2 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := fun h => h1 ((hcond0_1 t).mp h))⟩

/-- The last step's result block. -/
theorem last (c : Dev nD) (t : Fin cfg0.N) (h0 : ¬t.val % 25 = 0) (h1 : t.val % 25 = 24) :
    (outsAt0 m c t.val t.isLt).1 = outV (prevM m c t) (prevZ m c t) (prevS m c t) (blk3 m c t) (blk4 m c t) (blk0 m c t) (blk1 m c t) (blk2 m c t) := by
  rw [outsAt0_C m c t h0 h1]
  dsimp only
  exact Pieces.out_C_5 (F := F) (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := scM0_0) (harg7 := Memref.isWhole_whole _) (arg8 := scM0_1) (harg8 := Memref.isWhole_whole _) (arg9 := scM0_2) (harg9 := Memref.isWhole_whole _) (x0 := iblk m c 0 t) (x1 := iblk m c 1 t) (x2 := iblk m c 2 t) (x3 := iblk m c 3 t) (x4 := iblk m c 4 t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (hc0 := fun h => h0 ((hcond0_0 t).mp h)) (hc1 := (hcond0_1 t).mpr h1)

end Cert.KernelIdeal.Carried

end
-- ==== Proof.Blocks.lean ====
/-
  The windows' blocks, read at an index.

  At grid step t the first window holds rows 800 t .. 800 t + 799 of the first feature array, the second and third
  rows 600 t .. 600 t + 599 of theirs; the weights' window holds the whole matrix at every step, and the bias window
  the bias vector laid out as one row.
-/
import proofs.«132678_g3659312136369_retrytranche1_448_5_alg».proof.Proof.Gen.KernelIdeal.Frame
import Idealize.ShloMosaic.Lib.ValueIdx
import Idealize.ShloMosaic.Lib.Pipeline.Value
import Idealize.ShloMosaic.Lib.StableHlo.Run
import Idealize.ShloMosaic.Lib.ValueLayout

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The block index of each window at each grid step

A window's block index at step `t` is its index map at the grid coordinate of `t`; the grid has 25 points, so each
is decided once over the whole grid. Windows 0, 1, 2 walk down their arrays' rows (block row `t`, block column 0);
windows 3 and 4 stay at block (0, 0). -/

private theorem idx0 : ∀ t : Fin grid0.N, win0_0.index t 0 = t.val ∧ win0_0.index t 1 = 0 := by decide +kernel
private theorem idx1 : ∀ t : Fin grid0.N, win0_1.index t 0 = t.val ∧ win0_1.index t 1 = 0 := by decide +kernel
private theorem idx2 : ∀ t : Fin grid0.N, win0_2.index t 0 = t.val ∧ win0_2.index t 1 = 0 := by decide +kernel
private theorem idx3 : ∀ t : Fin grid0.N, win0_3.index t 0 = 0 ∧ win0_3.index t 1 = 0 := by decide +kernel
private theorem idx4 : ∀ t : Fin grid0.N, win0_4.index t 0 = 0 ∧ win0_4.index t 1 = 0 := by decide +kernel

/-! ## The blocks at an index

Along each axis, the array coordinate of a block's element is (block index) × (block extent) + (coordinate inside the
block). -/

/-- Window 0's block at step `t`, row `r`: row `800 t + r` of the first feature array. -/
theorem iblk0_apply (c : Dev nD) (t : Fin cfg0.N) (r : Fin 800) (k : Fin 256) (i : Fin 20000) (hi : i.val = 800 * t.val + r.val) :
    (iblk m c 0 t : Vec F S800x256 .f32) (ix2 r k) = m ((c.tc : Thread nD τ).loc main_arg0) (ix2 i k) := by
  have h := idx0 t
  unfold iblk
  rw [View.read_apply]
  show V m c main_arg0 _ = m (c.tc.loc main_arg0) _
  rw [V_main_arg0]
  congr 1
  funext a
  apply Fin.ext
  match a with
  | ⟨0, _⟩ => show win0_0.index t 0 * 800 + 1 * r.val = i.val; rw [h.1]; omega
  | ⟨1, _⟩ => show win0_0.index t 1 * 256 + 1 * k.val = k.val; rw [h.2]; omega

/-- Window 1's block at step `t`, row `r`: row `600 t + r` of the second feature array. -/
theorem iblk1_apply (c : Dev nD) (t : Fin cfg0.N) (r : Fin 600) (k : Fin 256) (i : Fin 15000) (hi : i.val = 600 * t.val + r.val) :
    (iblk m c 1 t : Vec F S600x256 .f32) (ix2 r k) = m ((c.tc : Thread nD τ).loc main_arg1) (ix2 i k) := by
  have h := idx1 t
  unfold iblk
  rw [View.read_apply]
  show V m c main_arg1 _ = m (c.tc.loc main_arg1) _
  rw [V_main_arg1]
  congr 1
  funext a
  apply Fin.ext
  match a with
  | ⟨0, _⟩ => show win0_1.index t 0 * 600 + 1 * r.val = i.val; rw [h.1]; omega
  | ⟨1, _⟩ => show win0_1.index t 1 * 256 + 1 * k.val = k.val; rw [h.2]; omega

/-- Window 2's block at step `t`, row `r`: row `600 t + r` of the third feature array. -/
theorem iblk2_apply (c : Dev nD) (t : Fin cfg0.N) (r : Fin 600) (k : Fin 256) (i : Fin 15000) (hi : i.val = 600 * t.val + r.val) :
    (iblk m c 2 t : Vec F S600x256 .f32) (ix2 r k) = m ((c.tc : Thread nD τ).loc main_arg2) (ix2 i k) := by
  have h := idx2 t
  unfold iblk
  rw [View.read_apply]
  show V m c main_arg2 _ = m (c.tc.loc main_arg2) _
  rw [V_main_arg2]
  congr 1
  funext a
  apply Fin.ext
  match a with
  | ⟨0, _⟩ => show win0_2.index t 0 * 600 + 1 * r.val = i.val; rw [h.1]; omega
  | ⟨1, _⟩ => show win0_2.index t 1 * 256 + 1 * k.val = k.val; rw [h.2]; omega

/-- Window 3's block is the whole weight matrix at every step. -/
theorem iblk3_apply (c : Dev nD) (t : Fin cfg0.N) (k j : Fin 256) :
    (iblk m c 3 t : Vec F S256x256 .f32) (ix2 k j) = m ((c.tc : Thread nD τ).loc main_arg3) (ix2 k j) := by
  have h := idx3 t
  unfold iblk
  rw [View.read_apply]
  show V m c main_arg3 _ = m (c.tc.loc main_arg3) _
  rw [V_main_arg3]
  congr 1
  funext a
  apply Fin.ext
  match a with
  | ⟨0, _⟩ => show win0_3.index t 0 * 256 + 1 * k.val = k.val; rw [h.1]; omega
  | ⟨1, _⟩ => show win0_3.index t 1 * 256 + 1 * j.val = j.val; rw [h.2]; omega

/-- The array window 4 reads is written before the region: the bias vector recast as a one-row matrix. -/
private theorem V_main_v0 (c : Dev nD) :
    (V m c main_v0 : S1x256.Idx → Elt F .f32)
      = shapeCast S1x256 (m ((c : Thread nD τ).loc main_arg4)) shapeCasts_S256_S1x256 := by
  show StableHlo.after hostOps0 (fun b => m (c, b)) (Proc.devRef .tc main_v0) = _
  after_results
  rfl

/-- Window 4's block is that one row at every step: at column `j` the bias vector's element `j`. -/
theorem iblk4_apply (c : Dev nD) (t : Fin cfg0.N) (j : Fin 256) :
    (iblk m c 4 t : Vec F S1x256 .f32) (ix2 (0 : Fin 1) j) = m ((c.tc : Thread nD τ).loc main_arg4) (ix1 j) := by
  have h := idx4 t
  unfold iblk
  rw [View.read_apply]
  show V m c main_v0 _ = m (c.tc.loc main_arg4) _
  rw [V_main_v0]
  rw [← shapeCast_a_1a_apply (m ((c.tc : Thread nD τ).loc main_arg4)) shapeCasts_S256_S1x256 (0 : Fin 1) j]
  congr 1
  funext a
  apply Fin.ext
  match a with
  | ⟨0, _⟩ => show win0_4.index t 0 * 1 + 1 * 0 = 0; rw [h.1]
  | ⟨1, _⟩ => show win0_4.index t 1 * 256 + 1 * j.val = j.val; rw [h.2]; omega

end Cert.KernelIdeal.Blocks

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.PoolSpec.lean ====
/-
  Global attention pooling over the reals: the specification both programs are compared against.

  The nodes are the rows of three feature arrays with 256 columns each. A row's gate logit in column j is its
  product with column j of the weight matrix plus the bias. Per column, the softmax over all nodes weights each
  node's own feature in that column; the readout is the sum over the columns of those weighted sums. Since the
  softmax's normaliser is common to a column, a column's weighted sum is the quotient of two sums over the nodes:
  B j = sum of x(n, j) * exp (logit n j) over A j = sum of exp (logit n j).

  The second half cuts the sums the way a grid of 25 steps meets them: step p sees rows 800 p .. 800 p + 799 of the
  first array and rows 600 p .. 600 p + 599 of the other two. The sums over the steps are the sums over all rows.
-/
import Mathlib.Analysis.SpecialFunctions.Exp
import Mathlib.Algebra.BigOperators.Fin
import Mathlib.Algebra.BigOperators.Group.Finset.Basic
import proofs.«132678_g3659312136369_retrytranche1_448_5_alg».proof.Proof.LibBlockSum

noncomputable section

namespace Cert.Pool

open scoped BigOperators

/-- The gate logit of row r in column j: the row times column j of the weights, plus the bias. -/
def logit {n : ℕ} (x : Fin n → Fin 256 → ℝ) (w : Fin 256 → Fin 256 → ℝ) (b : Fin 256 → ℝ) (r : Fin n) (j : Fin 256) : ℝ :=
  (∑ k : Fin 256, x r k * w k j) + b j

/-- One array's share of a column's normaliser. -/
def expSum {n : ℕ} (x : Fin n → Fin 256 → ℝ) (w : Fin 256 → Fin 256 → ℝ) (b : Fin 256 → ℝ) (j : Fin 256) : ℝ :=
  ∑ r : Fin n, Real.exp (logit x w b r j)

/-- One array's share of a column's weighted feature sum. -/
def featSum {n : ℕ} (x : Fin n → Fin 256 → ℝ) (w : Fin 256 → Fin 256 → ℝ) (b : Fin 256 → ℝ) (j : Fin 256) : ℝ :=
  ∑ r : Fin n, x r j * Real.exp (logit x w b r j)

section
variable (x0 : Fin 20000 → Fin 256 → ℝ) (x1 x2 : Fin 15000 → Fin 256 → ℝ) (w : Fin 256 → Fin 256 → ℝ) (b : Fin 256 → ℝ)

/-- Column j's normaliser over all nodes. -/
def colA (j : Fin 256) : ℝ := expSum x0 w b j + expSum x1 w b j + expSum x2 w b j
/-- Column j's weighted feature sum over all nodes. -/
def colB (j : Fin 256) : ℝ := featSum x0 w b j + featSum x1 w b j + featSum x2 w b j
/-- The readout. -/
def pooled : ℝ := ∑ j : Fin 256, colB x0 x1 x2 w b j / colA x0 x1 x2 w b j

theorem expSum_pos {n : ℕ} (hn : 0 < n) (x : Fin n → Fin 256 → ℝ) (j : Fin 256) : 0 < expSum x w b j := by
  haveI : Nonempty (Fin n) := ⟨⟨0, hn⟩⟩
  exact Finset.sum_pos (fun r _ => Real.exp_pos _) Finset.univ_nonempty

theorem colA_pos (j : Fin 256) : 0 < colA x0 x1 x2 w b j :=
  add_pos (add_pos (expSum_pos w b (by norm_num) x0 j) (expSum_pos w b (by norm_num) x1 j)) (expSum_pos w b (by norm_num) x2 j)

/-! ## The same sums, cut at the grid's steps -/

/-- Rows 800 p .. 800 p + 799 of the first array. -/
def tile0 (p : Fin 25) : Fin 800 → Fin 256 → ℝ := fun r k => x0 ⟨800 * p.val + r.val, by have := p.isLt; have := r.isLt; omega⟩ k
/-- Rows 600 p .. 600 p + 599 of the second array. -/
def tile1 (p : Fin 25) : Fin 600 → Fin 256 → ℝ := fun r k => x1 ⟨600 * p.val + r.val, by have := p.isLt; have := r.isLt; omega⟩ k
/-- Rows 600 p .. 600 p + 599 of the third array. -/
def tile2 (p : Fin 25) : Fin 600 → Fin 256 → ℝ := fun r k => x2 ⟨600 * p.val + r.val, by have := p.isLt; have := r.isLt; omega⟩ k

/-- What step p adds to column j's normaliser (nothing beyond the last step). -/
def stepA (p : ℕ) (j : Fin 256) : ℝ :=
  if h : p < 25 then expSum (tile0 x0 ⟨p, h⟩) w b j + expSum (tile1 x1 ⟨p, h⟩) w b j + expSum (tile2 x2 ⟨p, h⟩) w b j else 0
/-- What step p adds to column j's weighted feature sum. -/
def stepB (p : ℕ) (j : Fin 256) : ℝ :=
  if h : p < 25 then featSum (tile0 x0 ⟨p, h⟩) w b j + featSum (tile1 x1 ⟨p, h⟩) w b j + featSum (tile2 x2 ⟨p, h⟩) w b j else 0

/-- Column j's normaliser over the rows seen up to and including step n. -/
def accA (n : ℕ) (j : Fin 256) : ℝ := ∑ p ∈ Finset.range (n + 1), stepA x0 x1 x2 w b p j
/-- Column j's weighted feature sum over the rows seen up to and including step n. -/
def accB (n : ℕ) (j : Fin 256) : ℝ := ∑ p ∈ Finset.range (n + 1), stepB x0 x1 x2 w b p j

theorem accA_zero (j : Fin 256) : accA x0 x1 x2 w b 0 j = stepA x0 x1 x2 w b 0 j := by
  unfold accA; rw [Finset.sum_range_one]
theorem accB_zero (j : Fin 256) : accB x0 x1 x2 w b 0 j = stepB x0 x1 x2 w b 0 j := by
  unfold accB; rw [Finset.sum_range_one]
theorem accA_succ (n : ℕ) (j : Fin 256) : accA x0 x1 x2 w b (n + 1) j = accA x0 x1 x2 w b n j + stepA x0 x1 x2 w b (n + 1) j := by
  unfold accA; rw [Finset.sum_range_succ _ (n + 1)]
theorem accB_succ (n : ℕ) (j : Fin 256) : accB x0 x1 x2 w b (n + 1) j = accB x0 x1 x2 w b n j + stepB x0 x1 x2 w b (n + 1) j := by
  unfold accB; rw [Finset.sum_range_succ _ (n + 1)]

theorem stepA_of_lt (p : ℕ) (h : p < 25) (j : Fin 256) : stepA x0 x1 x2 w b p j
    = expSum (tile0 x0 ⟨p, h⟩) w b j + expSum (tile1 x1 ⟨p, h⟩) w b j + expSum (tile2 x2 ⟨p, h⟩) w b j := dif_pos h
theorem stepB_of_lt (p : ℕ) (h : p < 25) (j : Fin 256) : stepB x0 x1 x2 w b p j
    = featSum (tile0 x0 ⟨p, h⟩) w b j + featSum (tile1 x1 ⟨p, h⟩) w b j + featSum (tile2 x2 ⟨p, h⟩) w b j := dif_pos h

/-- The 25 tiles of 800 rows are the 20000 rows: a sum over the rows, tile by tile. -/
theorem sum_tiles0 (f : Fin 20000 → ℝ) :
    ∑ p : Fin 25, ∑ r : Fin 800, f ⟨800 * p.val + r.val, by have := p.isLt; have := r.isLt; omega⟩ = ∑ n : Fin 20000, f n :=
  Cert.BlockSum.sum_blocks 25 800 f
/-- The 25 tiles of 600 rows are the 15000 rows. -/
theorem sum_tiles1 (f : Fin 15000 → ℝ) :
    ∑ p : Fin 25, ∑ r : Fin 600, f ⟨600 * p.val + r.val, by have := p.isLt; have := r.isLt; omega⟩ = ∑ n : Fin 15000, f n :=
  Cert.BlockSum.sum_blocks 25 600 f

/-- After the last step the normaliser is the one over all nodes. -/
theorem accA_last (j : Fin 256) : accA x0 x1 x2 w b 24 j = colA x0 x1 x2 w b j := by
  unfold accA colA
  rw [Finset.sum_range (fun p => stepA x0 x1 x2 w b p j)]
  rw [Finset.sum_congr rfl (fun p _ => stepA_of_lt x0 x1 x2 w b p.val p.isLt j)]
  rw [Finset.sum_add_distrib, Finset.sum_add_distrib]
  unfold expSum
  rw [← sum_tiles0 (fun n => Real.exp (logit x0 w b n j)), ← sum_tiles1 (fun n => Real.exp (logit x1 w b n j)),
    ← sum_tiles1 (fun n => Real.exp (logit x2 w b n j))]
  rfl

/-- After the last step the weighted feature sum is the one over all nodes. -/
theorem accB_last (j : Fin 256) : accB x0 x1 x2 w b 24 j = colB x0 x1 x2 w b j := by
  unfold accB colB
  rw [Finset.sum_range (fun p => stepB x0 x1 x2 w b p j)]
  rw [Finset.sum_congr rfl (fun p _ => stepB_of_lt x0 x1 x2 w b p.val p.isLt j)]
  rw [Finset.sum_add_distrib, Finset.sum_add_distrib]
  unfold featSum
  rw [← sum_tiles0 (fun n => x0 n j * Real.exp (logit x0 w b n j)), ← sum_tiles1 (fun n => x1 n j * Real.exp (logit x1 w b n j)),
    ← sum_tiles1 (fun n => x2 n j * Real.exp (logit x2 w b n j))]
  rfl

end

end Cert.Pool

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.PoolMath.lean ====
/-
  The algebra of a running softmax, one column at a time.

  Carry a maximum m, a normaliser z and a weighted sum s. Against the true sums A = sum of exp g and B = sum of
  x * exp g over the rows seen so far, the carried values are A and B scaled by exp (-m): nothing is lost by the
  scaling, because a later step multiplies by exp (m - m') and exp (-m) * exp (m - m') = exp (-m'). Before any row is
  seen m is minus infinity and z, s, A, B are zero; exp of minus infinity is zero, so the first rescaling multiplies
  zero by zero. At the end s / z = B / A whatever real m is. The reference's column, normalised by any real shift M,
  is the same quotient.
-/
import proofs.«132678_g3659312136369_retrytranche1_448_5_alg».proof.Proof.LibIdealReal
import Mathlib.Analysis.SpecialFunctions.Exp
import Mathlib.Algebra.BigOperators.Field

noncomputable section

namespace Cert.Pool

open Idealize.ShloMosaic
open scoped BigOperators

/-- The carried triple of one column against the column's true sums over the rows seen so far. -/
def Inv (m z s : EReal) (A B : ℝ) : Prop :=
  (m = ⊥ ∧ z = 0 ∧ s = 0 ∧ A = 0 ∧ B = 0)
    ∨ ∃ μ : ℝ, m = (μ : EReal) ∧ z = ((Real.exp (-μ) * A : ℝ) : EReal) ∧ s = ((Real.exp (-μ) * B : ℝ) : EReal)

/-- Before any row. -/
theorem inv_init : Inv ⊥ 0 0 0 0 := Or.inl ⟨rfl, rfl, rfl, rfl, rfl⟩

/-- The tile's normaliser against a real maximum ν: every exponential is a coerced real, and
    exp (g - ν) = exp (-ν) * exp g, so the factor exp (-ν) comes out of the sum. -/
private theorem sum_exp_shift {R : Type} [Fintype R] (g : R → ℝ) (ν : ℝ) :
    ∑ r : R, Ideal.exp ((g r : EReal) - (ν : EReal))
      = ((Real.exp (-ν) * ∑ r : R, Real.exp (g r) : ℝ) : EReal) := by
  have h : ∀ r : R, Ideal.exp ((g r : EReal) - (ν : EReal))
      = ((Real.exp (-ν) * Real.exp (g r) : ℝ) : EReal) := by
    intro r
    rw [LibIdealReal.sub_coe, LibIdealReal.exp_coe, sub_eq_add_neg, add_comm (g r) (-ν), Real.exp_add]
  rw [Finset.sum_congr rfl (fun r _ => h r), LibIdealReal.sum_univ_coe, Finset.mul_sum]

/-- The tile's weighted sum against a real maximum ν, in the same way. -/
private theorem sum_mul_exp_shift {R : Type} [Fintype R] (g x : R → ℝ) (ν : ℝ) :
    ∑ r : R, (x r : EReal) * Ideal.exp ((g r : EReal) - (ν : EReal))
      = ((Real.exp (-ν) * ∑ r : R, x r * Real.exp (g r) : ℝ) : EReal) := by
  have h : ∀ r : R, (x r : EReal) * Ideal.exp ((g r : EReal) - (ν : EReal))
      = ((Real.exp (-ν) * (x r * Real.exp (g r)) : ℝ) : EReal) := by
    intro r
    rw [LibIdealReal.sub_coe, LibIdealReal.exp_coe, LibIdealReal.mul_coe, sub_eq_add_neg,
      add_comm (g r) (-ν), Real.exp_add]
    congr 1; ring
  rw [Finset.sum_congr rfl (fun r _ => h r), LibIdealReal.sum_univ_coe, Finset.mul_sum]

/-- Rescaling from the maximum μ to the maximum μ': exp (-μ) * exp (μ - μ') = exp (-μ'). -/
private theorem exp_rescale (μ μ' : ℝ) : Real.exp (-μ) * Real.exp (μ - μ') = Real.exp (-μ') := by
  rw [← Real.exp_add]; congr 1; ring

/-- One tile of rows R with real logits g and real features x, whose column maximum is the real τ: the new maximum is
    max m τ, the carried sums are rescaled by exp (m - new maximum) and the tile's sums, taken against the new maximum,
    are added. -/
theorem tile_step {R : Type} [Fintype R] (m z s : EReal) (A B : ℝ) (h : Inv m z s A B) (g x : R → ℝ) (τ : ℝ) :
    Inv (max m (τ : EReal))
      (z * Ideal.exp (m - max m (τ : EReal)) + ∑ r : R, Ideal.exp ((g r : EReal) - max m (τ : EReal)))
      (s * Ideal.exp (m - max m (τ : EReal)) + ∑ r : R, (x r : EReal) * Ideal.exp ((g r : EReal) - max m (τ : EReal)))
      (A + ∑ r : R, Real.exp (g r)) (B + ∑ r : R, x r * Real.exp (g r)) := by
  rcases h with ⟨rfl, rfl, rfl, rfl, rfl⟩ | ⟨μ, rfl, rfl, rfl⟩
  · -- No row seen yet: the new maximum is τ, and the carried zeros stay zero whatever they are multiplied by.
    have hmax : max (⊥ : EReal) (τ : EReal) = (τ : EReal) := max_eq_right bot_le
    refine Or.inr ⟨τ, hmax, ?_, ?_⟩
    · rw [hmax, sum_exp_shift]; simp only [zero_mul, zero_add]
    · rw [hmax, sum_mul_exp_shift]; simp only [zero_mul, zero_add]
  · -- A real maximum μ: the new maximum is the real max μ τ, and the carried sums are rescaled to it.
    refine Or.inr ⟨max μ τ, LibIdealReal.max_coe μ τ, ?_, ?_⟩
    · rw [LibIdealReal.max_coe, LibIdealReal.sub_coe, LibIdealReal.exp_coe, LibIdealReal.mul_coe, sum_exp_shift,
        LibIdealReal.add_coe]
      congr 1
      rw [mul_add, ← exp_rescale μ (max μ τ)]; ring
    · rw [LibIdealReal.max_coe, LibIdealReal.sub_coe, LibIdealReal.exp_coe, LibIdealReal.mul_coe, sum_mul_exp_shift,
        LibIdealReal.add_coe]
      congr 1
      rw [mul_add, ← exp_rescale μ (max μ τ)]; ring

/-- At the end, with a positive normaliser, s / z is B / A. -/
theorem final_col (m z s : EReal) (A B : ℝ) (hA : 0 < A) (h : Inv m z s A B) : Ideal.div s z = ((B / A : ℝ) : EReal) := by
  rcases h with ⟨_, _, _, hA0, _⟩ | ⟨μ, _, rfl, rfl⟩
  · exact absurd hA0 (ne_of_gt hA)
  · have hne : Real.exp (-μ) * A ≠ 0 := mul_ne_zero (Real.exp_ne_zero _) (ne_of_gt hA)
    rw [LibIdealReal.div_coe _ hne, mul_div_mul_left _ _ (Real.exp_ne_zero _)]

/-- The reference's column: every row's exponential, shifted by any real M, over the sum of the shifted exponentials,
    weighted by the row's feature and summed, is B / A. -/
theorem ref_col {N : Type} [Fintype N] (g x : N → ℝ) (M : ℝ) (hA : 0 < ∑ n : N, Real.exp (g n)) :
    ∑ n : N, x n * (Real.exp (g n - M) / ∑ n' : N, Real.exp (g n' - M))
      = (∑ n : N, x n * Real.exp (g n)) / ∑ n : N, Real.exp (g n) := by
  have hM : Real.exp M ≠ 0 := Real.exp_ne_zero M
  have hS : (∑ n : N, Real.exp (g n)) ≠ 0 := ne_of_gt hA
  -- The shifted normaliser is the unshifted one over exp M.
  have hden : ∑ n' : N, Real.exp (g n' - M) = (∑ n' : N, Real.exp (g n')) / Real.exp M := by
    rw [Finset.sum_div]; exact Finset.sum_congr rfl (fun n _ => Real.exp_sub (g n) M)
  -- So each row's shifted weight is its unshifted weight: exp M cancels.
  have hrow : ∀ n : N, x n * (Real.exp (g n - M) / ∑ n' : N, Real.exp (g n' - M))
      = x n * Real.exp (g n) / ∑ n' : N, Real.exp (g n') := by
    intro n
    rw [hden, Real.exp_sub, div_div_div_cancel_right₀ hM, mul_div_assoc]
  rw [Finset.sum_congr rfl (fun n _ => hrow n), Finset.sum_div]

end Cert.Pool

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.PointStep.lean ====
/-
  One grid step at the ideal instance, column by column, on real tiles.

  Read at column j, the three rows a step stores are three successive tile updates of the carried triple
  (m, z, s) of that column: the tile's logits are the tile's rows times column j of the weights plus the bias, its
  column maximum is a real number because the tile has rows, and the ones-row products are plain sums over the tile's rows.
  So the running-softmax relation between the carried triple and the true sums is kept, with the step's three tiles added.
-/
import proofs.«132678_g3659312136369_retrytranche1_448_5_alg».proof.Proof.Step
import proofs.«132678_g3659312136369_retrytranche1_448_5_alg».proof.Proof.PoolSpec
import proofs.«132678_g3659312136369_retrytranche1_448_5_alg».proof.Proof.PoolMath
import proofs.«132678_g3659312136369_retrytranche1_448_5_alg».proof.Proof.LibIdealReal
import proofs.«132678_g3659312136369_retrytranche1_448_5_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointStep

open Cert.KernelIdeal Cert.KernelIdeal.Gen Cert.KernelIdeal.Step Idealize.ShloMosaic Idealize.ShloMosaic.ValueIdx Cert.Pool

section Tile
variable {T : ℕ}

/-- The tile's logits at (r, j): the tile's row r times column j of the weights, plus the bias. -/
private theorem logits_apply (d : DotDims ⟨2, ![T, 256]⟩ ⟨2, ![256, 256]⟩ ⟨2, ![T, 256]⟩)
    (hlc : d.lhsContracting = [1]) (hrc : d.rhsContracting = [0]) (hln : d.lhsNonContracting = [0])
    (hrn : d.rhsNonContracting = [1]) (hlb : d.lhsBatch = []) (hrb : d.rhsBatch = [])
    (hbc : (⟨2, ![1, 256]⟩ : Shape).Broadcasts ⟨2, ![T, 256]⟩)
    (w : FVec Ideal ⟨2, ![256, 256]⟩ .f32) (b : FVec Ideal ⟨2, ![1, 256]⟩ .f32) (x : FVec Ideal ⟨2, ![T, 256]⟩ .f32)
    (wr : Fin 256 → Fin 256 → ℝ) (br : Fin 256 → ℝ) (t : Fin T → Fin 256 → ℝ)
    (hw : ∀ k j, w (ix2 k j) = ((wr k j : ℝ) : EReal)) (hb : ∀ j, b (ix2 (0 : Fin 1) j) = ((br j : ℝ) : EReal))
    (hx : ∀ r k, x (ix2 r k) = ((t r k : ℝ) : EReal)) (r : Fin T) (j : Fin 256) :
    addf (matmul d none x w (constant (F := Ideal) ⟨2, ![T, 256]⟩ .f32 0x00000000#32)) (broadcastTo ⟨2, ![T, 256]⟩ b hbc) (ix2 r j)
      = ((logit t wr br r j : ℝ) : EReal) := by
  refine (addf_apply _ _ _).trans ?_
  refine (congrArg₂ (· + ·) (LibPlainDot.matmul_zero_apply d hlc hrc hln hrn hlb hrb none x w r j)
    (broadcastTo_1b_ab_apply b hbc r j)).trans ?_
  rw [hb, LibIdealReal.sum_of_eq Finset.univ _ (fun k => t r k * wr k j)
    (fun k _ => by rw [hx, hw, LibIdealReal.mul_coe]), LibIdealReal.add_coe]
  rfl

/-- The index over column j with row k put back is (k, j). -/
private theorem lift_col (hred : (⟨2, ![T, 256]⟩ : Shape).Reduces [0] ⟨1, ![256]⟩) (j : Fin 256) (k : Fin T) :
    hred.lift (ix1 j) k = ix2 k j := by
  funext c
  apply Fin.ext
  match c with
  | ⟨0, _⟩ => rfl
  | ⟨1, _⟩ => rfl

/-- The column maximum of a tile with rows, whose column j holds coerced reals, kept as a one-row array: at (0, j) it is
    the coerced maximum of those reals. -/
private theorem colmax_apply [NeZero T] (hred : (⟨2, ![T, 256]⟩ : Shape).Reduces [0] ⟨1, ![256]⟩)
    (hφ : FKind.Formats .f32) (hacc : (0xFF800000#32 : BitVec 32) = FKind.maximumf.neutral .f32 hφ)
    (hsc : (⟨1, ![256]⟩ : Shape).ShapeCasts ⟨2, ![1, 256]⟩)
    (g : FVec Ideal ⟨2, ![T, 256]⟩ .f32) (f : Fin T → ℝ) (j : Fin 256) (hg : ∀ r, g (ix2 r j) = ((f r : ℝ) : EReal)) :
    shapeCast ⟨2, ![1, 256]⟩ (multiReduction (F := Ideal) .maximumf [0] ⟨1, ![256]⟩ g 0xFF800000#32 hred hφ hacc) hsc
        (ix2 (0 : Fin 1) j)
      = ((Finset.univ.sup' Finset.univ_nonempty f : ℝ) : EReal) := by
  refine (shapeCast_a_1a_apply _ hsc 0 j).trans ?_
  refine (Ideal.multiReduction_maximumf_single g _ hred hφ hacc (ix1 j)).trans ?_
  rw [show FloatOps.ofBits (F := Ideal) .f32 0xFF800000#32 = (⊥ : EReal) from LibIdealReal.ofBits_neg_inf]
  exact LibIdealReal.fold_max_bot_of_eq Finset.univ Finset.univ_nonempty _ f
    (fun r => (congrArg g (lift_col hred j r)).trans (hg r))

/-- A product with a row of ones on the left sums the right operand's column. -/
private theorem ones_dot_apply (d : DotDims ⟨2, ![1, T]⟩ ⟨2, ![T, 256]⟩ ⟨2, ![1, 256]⟩)
    (hlc : d.lhsContracting = [1]) (hrc : d.rhsContracting = [0]) (hln : d.lhsNonContracting = [0])
    (hrn : d.rhsNonContracting = [1]) (hlb : d.lhsBatch = []) (hrb : d.rhsBatch = [])
    (ones : FVec Ideal ⟨2, ![1, T]⟩ .f32) (hones : ∀ r, ones (ix2 (0 : Fin 1) r) = 1)
    (e : FVec Ideal ⟨2, ![T, 256]⟩ .f32) (j : Fin 256) :
    matmul d none ones e (constant (F := Ideal) ⟨2, ![1, 256]⟩ .f32 0x00000000#32) (ix2 (0 : Fin 1) j)
      = ∑ r : Fin T, e (ix2 r j) := by
  refine (LibPlainDot.matmul_zero_apply d hlc hrc hln hrn hlb hrb none ones e 0 j).trans ?_
  exact Finset.sum_congr rfl (fun r _ => by rw [hones, one_mul])

/-- The exponentials of a tile's entries less a row, at (r, j). -/
private theorem exp_sub_row_apply (hbc : (⟨2, ![1, 256]⟩ : Shape).Broadcasts ⟨2, ![T, 256]⟩)
    (g : FVec Ideal ⟨2, ![T, 256]⟩ .f32) (m' : FVec Ideal ⟨2, ![1, 256]⟩ .f32) (r : Fin T) (j : Fin 256) :
    exp (subf g (broadcastTo ⟨2, ![T, 256]⟩ m' hbc)) (ix2 r j) = Ideal.exp (g (ix2 r j) - m' (ix2 (0 : Fin 1) j)) := by
  show Ideal.exp (g (ix2 r j) - broadcastTo ⟨2, ![T, 256]⟩ m' hbc (ix2 r j)) = _
  rw [broadcastTo_1b_ab_apply]

/-- The tile's contribution to the normaliser: the column sum of the exponentials of the logits less the new maximum. -/
private theorem zsum_apply (d : DotDims ⟨2, ![1, T]⟩ ⟨2, ![T, 256]⟩ ⟨2, ![1, 256]⟩)
    (hlc : d.lhsContracting = [1]) (hrc : d.rhsContracting = [0]) (hln : d.lhsNonContracting = [0])
    (hrn : d.rhsNonContracting = [1]) (hlb : d.lhsBatch = []) (hrb : d.rhsBatch = [])
    (ones : FVec Ideal ⟨2, ![1, T]⟩ .f32) (hones : ∀ r, ones (ix2 (0 : Fin 1) r) = 1)
    (hbc : (⟨2, ![1, 256]⟩ : Shape).Broadcasts ⟨2, ![T, 256]⟩)
    (g : FVec Ideal ⟨2, ![T, 256]⟩ .f32) (m' : FVec Ideal ⟨2, ![1, 256]⟩ .f32) (f : Fin T → ℝ) (j : Fin 256)
    (hg : ∀ r, g (ix2 r j) = ((f r : ℝ) : EReal)) :
    matmul d none ones (exp (subf g (broadcastTo ⟨2, ![T, 256]⟩ m' hbc)))
        (constant (F := Ideal) ⟨2, ![1, 256]⟩ .f32 0x00000000#32) (ix2 (0 : Fin 1) j)
      = ∑ r : Fin T, Ideal.exp (((f r : ℝ) : EReal) - m' (ix2 (0 : Fin 1) j)) := by
  refine (ones_dot_apply d hlc hrc hln hrn hlb hrb ones hones _ j).trans ?_
  exact Finset.sum_congr rfl (fun r _ => by rw [exp_sub_row_apply, hg])

/-- The tile's contribution to the weighted feature sum: the column sum of feature times exponential. -/
private theorem ssum_apply (d : DotDims ⟨2, ![1, T]⟩ ⟨2, ![T, 256]⟩ ⟨2, ![1, 256]⟩)
    (hlc : d.lhsContracting = [1]) (hrc : d.rhsContracting = [0]) (hln : d.lhsNonContracting = [0])
    (hrn : d.rhsNonContracting = [1]) (hlb : d.lhsBatch = []) (hrb : d.rhsBatch = [])
    (ones : FVec Ideal ⟨2, ![1, T]⟩ .f32) (hones : ∀ r, ones (ix2 (0 : Fin 1) r) = 1)
    (hbc : (⟨2, ![1, 256]⟩ : Shape).Broadcasts ⟨2, ![T, 256]⟩)
    (x g : FVec Ideal ⟨2, ![T, 256]⟩ .f32) (m' : FVec Ideal ⟨2, ![1, 256]⟩ .f32) (f : Fin T → ℝ) (t : Fin T → Fin 256 → ℝ)
    (j : Fin 256) (hg : ∀ r, g (ix2 r j) = ((f r : ℝ) : EReal)) (hx : ∀ r k, x (ix2 r k) = ((t r k : ℝ) : EReal)) :
    matmul d none ones (mulf x (exp (subf g (broadcastTo ⟨2, ![T, 256]⟩ m' hbc))))
        (constant (F := Ideal) ⟨2, ![1, 256]⟩ .f32 0x00000000#32) (ix2 (0 : Fin 1) j)
      = ∑ r : Fin T, ((t r j : ℝ) : EReal) * Ideal.exp (((f r : ℝ) : EReal) - m' (ix2 (0 : Fin 1) j)) := by
  refine (ones_dot_apply d hlc hrc hln hrn hlb hrb ones hones _ j).trans ?_
  exact Finset.sum_congr rfl (fun r _ => by rw [mulf_apply, exp_sub_row_apply, hg, hx])

end Tile

/-- The column maximum of a tile's logits, a real number. -/
private def tmax {T : ℕ} [NeZero T] (t : Fin T → Fin 256 → ℝ) (wr : Fin 256 → Fin 256 → ℝ) (br : Fin 256 → ℝ) (j : Fin 256) : ℝ :=
  Finset.univ.sup' Finset.univ_nonempty (fun r => logit t wr br r j)

private theorem ones800 (r : Fin 800) : k0_pay11 (F := Ideal) (ix2 (0 : Fin 1) r) = 1 := LibIdealReal.ofBits_one
private theorem ones600a (r : Fin 600) : k0_pay19 (F := Ideal) (ix2 (0 : Fin 1) r) = 1 := LibIdealReal.ofBits_one
private theorem ones600b (r : Fin 600) : k0_pay24 (F := Ideal) (ix2 (0 : Fin 1) r) = 1 := LibIdealReal.ofBits_one

section Step
variable (m z s : FVec Ideal S1x256 .f32) (w : FVec Ideal S256x256 .f32) (b : FVec Ideal S1x256 .f32)
    (x0 : FVec Ideal S800x256 .f32) (x1 x2 : FVec Ideal S600x256 .f32)
    (wr : Fin 256 → Fin 256 → ℝ) (br : Fin 256 → ℝ) (t0 : Fin 800 → Fin 256 → ℝ) (t1 t2 : Fin 600 → Fin 256 → ℝ)
    (hw : ∀ k j, w (ix2 k j) = ((wr k j : ℝ) : EReal)) (hb : ∀ j, b (ix2 (0 : Fin 1) j) = ((br j : ℝ) : EReal))
    (h0 : ∀ r k, x0 (ix2 r k) = ((t0 r k : ℝ) : EReal)) (h1 : ∀ r k, x1 (ix2 r k) = ((t1 r k : ℝ) : EReal))
    (h2 : ∀ r k, x2 (ix2 r k) = ((t2 r k : ℝ) : EReal))
include hw hb

include h0 in
private theorem pay7_apply (r : Fin 800) (j : Fin 256) :
    k0_pay7 (F := Ideal) w b x0 (ix2 r j) = ((logit t0 wr br r j : ℝ) : EReal) := by
  unfold k0_pay7 k0_pay6
  rw [shapeCast_self]
  exact logits_apply _ rfl rfl rfl rfl rfl rfl _ w b x0 wr br t0 hw hb h0 r j

include h0 in
private theorem pay8_apply (j : Fin 256) :
    k0_pay8 (F := Ideal) m w b x0 (ix2 (0 : Fin 1) j) = max (m (ix2 (0 : Fin 1) j)) ((tmax t0 wr br j : ℝ) : EReal) := by
  unfold k0_pay8
  refine (maximumf_apply _ _ _).trans ?_
  refine congrArg (max (m (ix2 (0 : Fin 1) j))) ?_
  exact colmax_apply _ _ _ _ _ (fun r => logit t0 wr br r j) j (fun r => pay7_apply w b x0 wr br t0 hw hb h0 r j)

include h0 in
private theorem pay12_apply (j : Fin 256) :
    k0_pay12 (F := Ideal) m z w b x0 (ix2 (0 : Fin 1) j)
      = z (ix2 (0 : Fin 1) j) * Ideal.exp (m (ix2 (0 : Fin 1) j) - k0_pay8 (F := Ideal) m w b x0 (ix2 (0 : Fin 1) j))
        + ∑ r : Fin 800, Ideal.exp (((logit t0 wr br r j : ℝ) : EReal) - k0_pay8 (F := Ideal) m w b x0 (ix2 (0 : Fin 1) j)) := by
  unfold k0_pay12 k0_pay9 k0_pay10
  refine (addf_apply _ _ _).trans ?_
  refine congrArg₂ (· + ·) rfl ?_
  exact zsum_apply _ rfl rfl rfl rfl rfl rfl _ ones800 _ _ _ (fun r => logit t0 wr br r j) j
    (fun r => pay7_apply w b x0 wr br t0 hw hb h0 r j)

include h0 in
private theorem pay13_apply (j : Fin 256) :
    k0_pay13 (F := Ideal) m s w b x0 (ix2 (0 : Fin 1) j)
      = s (ix2 (0 : Fin 1) j) * Ideal.exp (m (ix2 (0 : Fin 1) j) - k0_pay8 (F := Ideal) m w b x0 (ix2 (0 : Fin 1) j))
        + ∑ r : Fin 800, ((t0 r j : ℝ) : EReal)
            * Ideal.exp (((logit t0 wr br r j : ℝ) : EReal) - k0_pay8 (F := Ideal) m w b x0 (ix2 (0 : Fin 1) j)) := by
  unfold k0_pay13 k0_pay9 k0_pay10
  refine (addf_apply _ _ _).trans ?_
  refine congrArg₂ (· + ·) rfl ?_
  exact ssum_apply _ rfl rfl rfl rfl rfl rfl _ ones800 _ _ _ _ (fun r => logit t0 wr br r j) t0 j
    (fun r => pay7_apply w b x0 wr br t0 hw hb h0 r j) h0

include h1 in
private theorem pay14_apply (r : Fin 600) (j : Fin 256) :
    k0_pay14 (F := Ideal) w b x1 (ix2 r j) = ((logit t1 wr br r j : ℝ) : EReal) := by
  unfold k0_pay14 k0_pay6
  rw [shapeCast_self]
  exact logits_apply _ rfl rfl rfl rfl rfl rfl _ w b x1 wr br t1 hw hb h1 r j

include h1 in
private theorem pay15_apply (j : Fin 256) :
    k0_pay15 (F := Ideal) w b x1 (ix2 (0 : Fin 1) j) = ((tmax t1 wr br j : ℝ) : EReal) := by
  unfold k0_pay15
  exact colmax_apply _ _ _ _ _ (fun r => logit t1 wr br r j) j (fun r => pay14_apply w b x1 wr br t1 hw hb h1 r j)

omit hb in
include h2 in
private theorem pay20_apply (v8 : FVec Ideal S1x256 .f32) (hv8 : ∀ j, v8 (ix2 (0 : Fin 1) j) = ((br j : ℝ) : EReal))
    (r : Fin 600) (j : Fin 256) :
    k0_pay20 (F := Ideal) w v8 x2 (ix2 r j) = ((logit t2 wr br r j : ℝ) : EReal) := by
  unfold k0_pay20
  exact logits_apply _ rfl rfl rfl rfl rfl rfl _ w v8 x2 wr br t2 hw hv8 h2 r j

omit hb in
include h2 in
private theorem pay21_apply (v8 v15 v34 : FVec Ideal S1x256 .f32) (hv8 : ∀ j, v8 (ix2 (0 : Fin 1) j) = ((br j : ℝ) : EReal))
    (j : Fin 256) :
    k0_pay21 (F := Ideal) w v8 v15 v34 x2 (ix2 (0 : Fin 1) j)
      = max (max (v15 (ix2 (0 : Fin 1) j)) (v34 (ix2 (0 : Fin 1) j))) ((tmax t2 wr br j : ℝ) : EReal) := by
  unfold k0_pay21 k0_pay16
  refine (maximumf_apply _ _ _).trans ?_
  refine congrArg₂ max rfl ?_
  exact colmax_apply _ _ _ _ _ (fun r => logit t2 wr br r j) j (fun r => pay20_apply w x2 wr br t2 hw h2 v8 hv8 r j)

omit hb in
include h2 in
private theorem pay25_apply (v8 v15 v24 v34 : FVec Ideal S1x256 .f32) (v32 : FVec Ideal S600x256 .f32)
    (hv8 : ∀ j, v8 (ix2 (0 : Fin 1) j) = ((br j : ℝ) : EReal)) (f1 : Fin 600 → ℝ) (j : Fin 256)
    (hv32 : ∀ r, v32 (ix2 r j) = ((f1 r : ℝ) : EReal)) :
    k0_pay25 (F := Ideal) w v8 v15 v24 v32 v34 x2 (ix2 (0 : Fin 1) j)
      = (v24 (ix2 (0 : Fin 1) j)
            * Ideal.exp (v15 (ix2 (0 : Fin 1) j) - k0_pay16 (F := Ideal) v15 v34 (ix2 (0 : Fin 1) j))
          + ∑ r : Fin 600, Ideal.exp (((f1 r : ℝ) : EReal) - k0_pay16 (F := Ideal) v15 v34 (ix2 (0 : Fin 1) j)))
          * Ideal.exp (k0_pay16 (F := Ideal) v15 v34 (ix2 (0 : Fin 1) j)
              - k0_pay21 (F := Ideal) w v8 v15 v34 x2 (ix2 (0 : Fin 1) j))
        + ∑ r : Fin 600, Ideal.exp (((logit t2 wr br r j : ℝ) : EReal)
              - k0_pay21 (F := Ideal) w v8 v15 v34 x2 (ix2 (0 : Fin 1) j)) := by
  unfold k0_pay25 k0_pay17 k0_pay18 k0_pay22 k0_pay23
  refine (addf_apply _ _ _).trans ?_
  refine congrArg₂ (· + ·) ?_
    (zsum_apply _ rfl rfl rfl rfl rfl rfl _ ones600b _ _ _ (fun r => logit t2 wr br r j) j
      (fun r => pay20_apply w x2 wr br t2 hw h2 v8 hv8 r j))
  refine (mulf_apply _ _ _).trans ?_
  refine congrArg₂ (· * ·) ?_ rfl
  refine (addf_apply _ _ _).trans ?_
  exact congrArg₂ (· + ·) rfl (zsum_apply _ rfl rfl rfl rfl rfl rfl _ ones600a _ _ _ f1 j hv32)

omit hb in
include h1 h2 in
private theorem pay26_apply (v8 v15 v28 v34 : FVec Ideal S1x256 .f32) (v32 : FVec Ideal S600x256 .f32)
    (hv8 : ∀ j, v8 (ix2 (0 : Fin 1) j) = ((br j : ℝ) : EReal)) (f1 : Fin 600 → ℝ) (j : Fin 256)
    (hv32 : ∀ r, v32 (ix2 r j) = ((f1 r : ℝ) : EReal)) :
    k0_pay26 (F := Ideal) w v8 v15 v28 x1 v32 v34 x2 (ix2 (0 : Fin 1) j)
      = (v28 (ix2 (0 : Fin 1) j)
            * Ideal.exp (v15 (ix2 (0 : Fin 1) j) - k0_pay16 (F := Ideal) v15 v34 (ix2 (0 : Fin 1) j))
          + ∑ r : Fin 600, ((t1 r j : ℝ) : EReal)
              * Ideal.exp (((f1 r : ℝ) : EReal) - k0_pay16 (F := Ideal) v15 v34 (ix2 (0 : Fin 1) j)))
          * Ideal.exp (k0_pay16 (F := Ideal) v15 v34 (ix2 (0 : Fin 1) j)
              - k0_pay21 (F := Ideal) w v8 v15 v34 x2 (ix2 (0 : Fin 1) j))
        + ∑ r : Fin 600, ((t2 r j : ℝ) : EReal)
            * Ideal.exp (((logit t2 wr br r j : ℝ) : EReal) - k0_pay21 (F := Ideal) w v8 v15 v34 x2 (ix2 (0 : Fin 1) j)) := by
  unfold k0_pay26 k0_pay17 k0_pay18 k0_pay22 k0_pay23
  refine (addf_apply _ _ _).trans ?_
  refine congrArg₂ (· + ·) ?_
    (ssum_apply _ rfl rfl rfl rfl rfl rfl _ ones600b _ _ _ _ (fun r => logit t2 wr br r j) t2 j
      (fun r => pay20_apply w x2 wr br t2 hw h2 v8 hv8 r j) h2)
  refine (mulf_apply _ _ _).trans ?_
  refine congrArg₂ (· * ·) ?_ rfl
  refine (addf_apply _ _ _).trans ?_
  exact congrArg₂ (· + ·) rfl (ssum_apply _ rfl rfl rfl rfl rfl rfl _ ones600a _ _ _ _ f1 t1 j hv32 h1)

end Step

/-- The bias row passes through its identity cast. -/
private theorem pay6_apply (b : FVec Ideal S1x256 .f32) (br : Fin 256 → ℝ)
    (hb : ∀ j, b (ix2 (0 : Fin 1) j) = ((br j : ℝ) : EReal)) (j : Fin 256) :
    k0_pay6 (F := Ideal) b (ix2 (0 : Fin 1) j) = ((br j : ℝ) : EReal) := by
  unfold k0_pay6
  rw [shapeCast_self]
  exact hb j

/-- A step keeps the relation, adding its three tiles' sums. -/
theorem point_inv (m z s : FVec Ideal S1x256 .f32) (w : FVec Ideal S256x256 .f32) (b : FVec Ideal S1x256 .f32)
    (x0 : FVec Ideal S800x256 .f32) (x1 x2 : FVec Ideal S600x256 .f32)
    (wr : Fin 256 → Fin 256 → ℝ) (br : Fin 256 → ℝ) (t0 : Fin 800 → Fin 256 → ℝ) (t1 t2 : Fin 600 → Fin 256 → ℝ)
    (hw : ∀ k j, w (ix2 k j) = ((wr k j : ℝ) : EReal)) (hb : ∀ j, b (ix2 (0 : Fin 1) j) = ((br j : ℝ) : EReal))
    (h0 : ∀ r k, x0 (ix2 r k) = ((t0 r k : ℝ) : EReal)) (h1 : ∀ r k, x1 (ix2 r k) = ((t1 r k : ℝ) : EReal))
    (h2 : ∀ r k, x2 (ix2 r k) = ((t2 r k : ℝ) : EReal))
    (j : Fin 256) (A B : ℝ) (hinv : Inv (m (ix2 (0 : Fin 1) j)) (z (ix2 (0 : Fin 1) j)) (s (ix2 (0 : Fin 1) j)) A B) :
    Inv (stepM (F := Ideal) m w b x0 x1 x2 (ix2 (0 : Fin 1) j)) (stepZ (F := Ideal) m z w b x0 x1 x2 (ix2 (0 : Fin 1) j))
      (stepS (F := Ideal) m s w b x0 x1 x2 (ix2 (0 : Fin 1) j))
      (A + (expSum t0 wr br j + expSum t1 wr br j + expSum t2 wr br j))
      (B + (featSum t0 wr br j + featSum t1 wr br j + featSum t2 wr br j)) := by
  have hv8 := pay6_apply b br hb
  have e8 := pay8_apply m w b x0 wr br t0 hw hb h0 j
  have e15 := pay15_apply w b x1 wr br t1 hw hb h1 j
  have e16 : k0_pay16 (F := Ideal) (k0_pay8 m w b x0) (k0_pay15 w b x1) (ix2 (0 : Fin 1) j)
      = max (max (m (ix2 (0 : Fin 1) j)) ((tmax t0 wr br j : ℝ) : EReal)) ((tmax t1 wr br j : ℝ) : EReal) := by
    unfold k0_pay16
    refine (maximumf_apply _ _ _).trans ?_
    rw [e8, e15]
  have e21 : k0_pay21 (F := Ideal) w (k0_pay6 b) (k0_pay8 m w b x0) (k0_pay15 w b x1) x2 (ix2 (0 : Fin 1) j)
      = max (max (max (m (ix2 (0 : Fin 1) j)) ((tmax t0 wr br j : ℝ) : EReal)) ((tmax t1 wr br j : ℝ) : EReal))
          ((tmax t2 wr br j : ℝ) : EReal) := by
    rw [pay21_apply w x2 wr br t2 hw h2 _ _ _ hv8 j, e8, e15]
  have eM : stepM (F := Ideal) m w b x0 x1 x2 (ix2 (0 : Fin 1) j)
      = max (max (max (m (ix2 (0 : Fin 1) j)) ((tmax t0 wr br j : ℝ) : EReal)) ((tmax t1 wr br j : ℝ) : EReal))
          ((tmax t2 wr br j : ℝ) : EReal) := by
    unfold stepM k0_pay27
    rw [shapeCast_self]
    exact e21
  have eZ := pay25_apply w x2 wr br t2 hw h2 (k0_pay6 b) (k0_pay8 m w b x0) (k0_pay12 m z w b x0) (k0_pay15 w b x1)
    (k0_pay14 w b x1) hv8 (fun r => logit t1 wr br r j) j (fun r => pay14_apply w b x1 wr br t1 hw hb h1 r j)
  have eS := pay26_apply w x1 x2 wr br t1 t2 hw h1 h2 (k0_pay6 b) (k0_pay8 m w b x0) (k0_pay13 m s w b x0) (k0_pay15 w b x1)
    (k0_pay14 w b x1) hv8 (fun r => logit t1 wr br r j) j (fun r => pay14_apply w b x1 wr br t1 hw hb h1 r j)
  rw [e16, e21, pay12_apply m z w b x0 wr br t0 hw hb h0 j, e8] at eZ
  rw [e16, e21, pay13_apply m s w b x0 wr br t0 hw hb h0 j, e8] at eS
  have i1 := tile_step _ _ _ A B hinv (fun r : Fin 800 => logit t0 wr br r j) (fun r => t0 r j) (tmax t0 wr br j)
  have i2 := tile_step _ _ _ _ _ i1 (fun r : Fin 600 => logit t1 wr br r j) (fun r => t1 r j) (tmax t1 wr br j)
  have i3 := tile_step _ _ _ _ _ i2 (fun r : Fin 600 => logit t2 wr br r j) (fun r => t2 r j) (tmax t2 wr br j)
  have hA : A + (expSum t0 wr br j + expSum t1 wr br j + expSum t2 wr br j)
      = A + (∑ r : Fin 800, Real.exp (logit t0 wr br r j)) + (∑ r : Fin 600, Real.exp (logit t1 wr br r j))
          + ∑ r : Fin 600, Real.exp (logit t2 wr br r j) := by
    unfold expSum; ring
  have hB : B + (featSum t0 wr br j + featSum t1 wr br j + featSum t2 wr br j)
      = B + (∑ r : Fin 800, t0 r j * Real.exp (logit t0 wr br r j)) + (∑ r : Fin 600, t1 r j * Real.exp (logit t1 wr br r j))
          + ∑ r : Fin 600, t2 r j * Real.exp (logit t2 wr br r j) := by
    unfold featSum; ring
  have eZ' : stepZ (F := Ideal) m z w b x0 x1 x2 (ix2 (0 : Fin 1) j)
      = k0_pay25 (F := Ideal) w (k0_pay6 b) (k0_pay8 m w b x0) (k0_pay12 m z w b x0) (k0_pay14 w b x1) (k0_pay15 w b x1) x2
          (ix2 (0 : Fin 1) j) := by
    unfold stepZ k0_pay28
    rw [shapeCast_self]
  have eS' : stepS (F := Ideal) m s w b x0 x1 x2 (ix2 (0 : Fin 1) j)
      = k0_pay26 (F := Ideal) w (k0_pay6 b) (k0_pay8 m w b x0) (k0_pay13 m s w b x0) x1 (k0_pay14 w b x1) (k0_pay15 w b x1) x2
          (ix2 (0 : Fin 1) j) := by
    unfold stepS k0_pay1
    rw [shapeCast_self]
  rw [eM, eZ', eZ, eS', eS, hA, hB]
  exact i3

end Cert.KernelIdeal.PointStep

end
-- ==== Proof.PointOut.lean ====
/-
  The two ends of the grid at the ideal instance: what the first step starts from, and what the last step stores.

  The first step fills the three carried rows with minus infinity, zero and zero before it reads them. The last step
  divides the weighted feature sums by the normalisers column by column and adds the 256 quotients up.
-/
import proofs.«132678_g3659312136369_retrytranche1_448_5_alg».proof.Proof.Step
import proofs.«132678_g3659312136369_retrytranche1_448_5_alg».proof.Proof.PoolMath
import proofs.«132678_g3659312136369_retrytranche1_448_5_alg».proof.Proof.LibIdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointOut

open Cert.KernelIdeal Cert.KernelIdeal.Gen Cert.KernelIdeal.Step Idealize.ShloMosaic Idealize.ShloMosaic.ValueIdx Cert.Pool

/-- The index set of a [1, 1, n] array is its last coordinate's range: the two leading coordinates are zero. -/
def idxEquiv11 {n : Nat} : (⟨3, ![1, 1, n]⟩ : Shape).Idx ≃ Fin n where
  toFun i := i 2
  invFun j := ix3 (0 : Fin 1) (0 : Fin 1) j
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

/-- So a sum over a [1, 1, n] index set is the sum over the last coordinate. -/
theorem sum_idx11 {M : Type*} [AddCommMonoid M] {n : Nat} (f : (⟨3, ![1, 1, n]⟩ : Shape).Idx → M) :
    ∑ i, f i = ∑ j : Fin n, f (ix3 (0 : Fin 1) (0 : Fin 1) j) := by
  rw [← Equiv.sum_comp (idxEquiv11 (n := n)).symm f]
  rfl

/-- The stored value over any two rows: the quotients of the second row by the first, column by column, added up.
    The reduction runs over every index of the [1, 1, 256] array, because the shape it reduces into has one element;
    that array at (0, 0, j) is the row of quotients at (0, j). -/
theorem pay2_apply (v64 v68 : FVec Ideal S1x256 .f32) (i : S1x1.Idx) :
    k0_pay2 (F := Ideal) v64 v68 i
      = ∑ j : Fin 256, Ideal.div (v68 (ix2 (0 : Fin 1) j)) (v64 (ix2 (0 : Fin 1) j)) := by
  show multiReduction (F := Ideal) .add [1, 2] S1
      (shapeCast S1x1x256 (divf v68 v64) shapeCasts_S1x256_S1x1x256) 0x00000000#32 reduces_S1x1x256_S1 (.inl rfl) rfl _ = _
  refine (Ideal.multiReduction_add_total _ _ reduces_S1x1x256_S1 (by decide) _ _ _).trans ?_
  rw [sum_idx11]
  refine Finset.sum_congr rfl fun j _ => ?_
  rw [shapeCast_ab_1ab_apply, divf_apply]

/-- The rows the first step starts from: minus infinity, zero, zero, the relation before any row. -/
theorem init_inv (j : Fin 256) :
    Inv ((k0_pay3 (F := Ideal)) (ix2 (0 : Fin 1) j)) ((k0_pay4 (F := Ideal)) (ix2 (0 : Fin 1) j))
      ((k0_pay5 (F := Ideal)) (ix2 (0 : Fin 1) j)) 0 0 := by
  have h3 : (k0_pay3 (F := Ideal)) (ix2 (0 : Fin 1) j) = ⊥ := by
    show shapeCast S1x256 (broadcast S1x256 (Ideal.ofBits .f32 0xFF800000#32)) shapeCasts_S1x256_S1x256 (ix2 (0 : Fin 1) j) = ⊥
    rw [shapeCast_self, broadcast_apply, Cert.LibIdealReal.ofBits_neg_inf]
  have h4 : (k0_pay4 (F := Ideal)) (ix2 (0 : Fin 1) j) = 0 := by
    show shapeCast S1x256 (broadcast S1x256 (Ideal.ofBits .f32 0x00000000#32)) shapeCasts_S1x256_S1x256 (ix2 (0 : Fin 1) j) = 0
    rw [shapeCast_self, broadcast_apply, Cert.LibIdealReal.ofBits_zero]
  have h5 : (k0_pay5 (F := Ideal)) (ix2 (0 : Fin 1) j) = 0 := by
    show shapeCast S1x256 (broadcast S1x256 (Ideal.ofBits .f32 0x00000000#32)) shapeCasts_S1x256_S1x256 (ix2 (0 : Fin 1) j) = 0
    rw [shapeCast_self, broadcast_apply, Cert.LibIdealReal.ofBits_zero]
  rw [h3, h4, h5]
  exact inv_init

/-- What the last step stores: the sum over the columns of (the s it leaves) / (the z it leaves). -/
theorem out_apply (m z s : FVec Ideal S1x256 .f32) (w : FVec Ideal S256x256 .f32) (b : FVec Ideal S1x256 .f32)
    (x0 : FVec Ideal S800x256 .f32) (x1 x2 : FVec Ideal S600x256 .f32) (i : S1x1.Idx) :
    outV (F := Ideal) m z s w b x0 x1 x2 i
      = ∑ j : Fin 256, Ideal.div (stepS (F := Ideal) m s w b x0 x1 x2 (ix2 (0 : Fin 1) j)) (stepZ (F := Ideal) m z w b x0 x1 x2 (ix2 (0 : Fin 1) j)) := by
  unfold outV stepS stepZ k0_pay1 k0_pay28
  rw [pay2_apply, shapeCast_self, shapeCast_self]

end Cert.KernelIdeal.PointOut

end
-- ==== Proof.Tail.lean ====
/-
  From the last grid step to the program's result.

  The result window has one block, the whole 1 x 1 array, written back once, after the last step (step 24). So the
  array ends holding what that step left in the window's buffer, and the reshape after the region lays that one entry
  out as the one-entry result vector. The argument arrays end as they were.
-/
import proofs.«132678_g3659312136369_retrytranche1_448_5_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- The result window is written back at one point only, the last. -/
private theorem flush_last (t : Fin cfg0.N) (hf : (cfg0.win 5).flush t = true) : t.val = 24 := by
  have h := (flush0_5 t).mp hf
  have hN : cfg0.N = 25 := N_0
  have := t.isLt
  omega

/-- What that write-back writes: the window's one block is the whole 1 x 1 array, so the written part is the
    buffer's contents after the last step, read through the whole array. -/
private theorem flushed_last (G : (c : Dev nD) → Vec F S1x1 .f32) (hN : 24 < cfg0.N) (hG : ∀ c, (outsAt0 m c (⟨24, hN⟩ : Fin cfg0.N).val (⟨24, hN⟩ : Fin cfg0.N).isLt).1 = G c)
    (c : Dev nD) (t : Fin cfg0.N) (hf : (cfg0.win 5).flush t = true) :
    (dats m 0 c).flushed 5 t = ((cfg0.win 5).blk t).view.read (Elt F) (G c) := by
  obtain rfl : t = ⟨24, hN⟩ := Fin.ext (flush_last t hf)
  show (cfg0.win 5).cut (grid0.coords ⟨24, hN⟩) ((dats m 0 c).after 5 ⟨24, hN⟩) = _
  have e : (outsAt0 m c (⟨24, hN⟩ : Fin cfg0.N).val (⟨24, hN⟩ : Fin cfg0.N).isLt).1 = G c := hG c
  rw [after0_5, e]
  have hz : (fun a => win0_5.index ⟨24, hN⟩ a * main_v1.ty.shape.size a) = fun _ => 0 :=
    funext fun a => by fin_cases a <;> rfl
  exact (Memref.read_access_unit_zero (Elt F) main_v1 hz (fun a => by rw [congrFun hz a]; simp) (G c)).symm

/-- So the result array ends holding what the last step left in the window's buffer. -/
private theorem final5 (G : (c : Dev nD) → Vec F S1x1 .f32) (hN : 24 < cfg0.N) (hG : ∀ c, (outsAt0 m c (⟨24, hN⟩ : Fin cfg0.N).val (⟨24, hN⟩ : Fin cfg0.N).isLt).1 = G c)
    (c : Dev nD) : (dats m 0 c).arrAt 5 cfg0.N = G c :=
  (dats m 0 c).arrAt_eq_of_cover 5 (G c) (flushed_last m G hN hG c) fun i =>
    ⟨⟨24, hN⟩, (flush0_5 ⟨24, hN⟩).mpr rfl, by
      show i ∈ ((View.whole main_v1).slice (win0_5.rect ⟨24, hN⟩)).set
      rw [View.set_slice_whole, Rect.mem_set_unit]
      intro a
      have hlt : (i a : Nat) < S1x1.size a := (i a).isLt
      have h0 : win0_5.index ⟨24, hN⟩ a * win0_5.size a = 0 := by fin_cases a <;> rfl
      have h1 : win0_5.xsize (grid0.coords ⟨24, hN⟩) a = S1x1.size a := rfl
      rw [h0, h1]
      omega⟩

/-- The reshape after the region reads the result array as the region left it and lays its one entry out as the
    result vector. -/
private theorem tail_v2 (G : (c : Dev nD) → Vec F S1x1 .f32) (hN : 24 < cfg0.N) (hG : ∀ c, (outsAt0 m c (⟨24, hN⟩ : Fin cfg0.N).val (⟨24, hN⟩ : Fin cfg0.N).isLt).1 = G c)
    (c : Dev nD) :
    Pipeline.afterTail₀ cfgs (dats m) 0 (V0 m) [hostOps1] c main_v2 = shapeCast S1 (G c) shapeCasts_S1x1_S1 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = G c :=
    (Pipeline.withArrays_arr spec0 launch0.win.arr_inj c _ _ 5).trans (final5 m G hN hG c)
  rw [hw]
  rfl

/-- If the last step leaves `G c` in the result window's buffer, the program ends with the result vector at the reshape
    of `G c` and its arguments unchanged. -/
theorem run_value (G : (c : Dev nD) → Vec F S1x1 .f32) (hN : 24 < cfg0.N) (hG : ∀ c, (outsAt0 m c (⟨24, hN⟩ : Fin cfg0.N).val (⟨24, hN⟩ : Fin cfg0.N).isLt).1 = G c) :
    θ_run defs (onTc (τ := τ) (main (F := F))) ⟨m, fun _ => 0, ρ⟩ (fun r => ∀ c : Dev nD,
      r.2.mem ((c.tc : Thread nD τ).loc main_v2) = shapeCast S1 (G c) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_v2 m G hN hG c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Tail

end
-- ==== Proof.LibFinite.lean ====
/-
  "Every entry is finite", read back from the printed test, for an array of any shape.

  The precondition tests an array by `all (|x| < +inf)`: the absolute value entry by entry, compared with the
  pattern of plus infinity, and the one-bit answers folded by `and` into a single bit. If that bit is one, every
  entry's comparison came out one, so `max x (-x)` is below the top element: `x` is neither infinity, that is, `x`
  is a coerced real.
-/
import Idealize.ShloMosaic.PureOps.Ideal
import Idealize.ShloMosaic.Lib.ValueIdx
import Idealize.ShloMosaic.Lib.ReduceAll

noncomputable section

namespace Cert.LibFinite

open Idealize.ShloMosaic Idealize.ShloMosaic.ValueIdx

/-- The pattern `0x7F800000` denotes the top element. -/
theorem ofBits_inf : Ideal.ofBits .f32 0x7F800000#32 = (⊤ : EReal) := by
  simp [Ideal.ofBits, Ideal.ieee]

/-- An extended real whose absolute value compares below plus infinity is a coerced real. -/
theorem real_of_abs_lt_inf (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
instance : Subsingleton (⟨0, ![]⟩ : Shape).Idx := ⟨fun a b => funext fun d => d.elim0⟩

/-- If the test `all (|x| < +inf)` of an array answers one, every entry of the array is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

end Cert.LibFinite

end
-- ==== Proof.Finite.lean ====
/-
  Finite inputs are real inputs: if the printed test "every entry of every input has absolute value below plus
  infinity" answers one, every entry of each of the five arrays is a coerced real.
-/
import proofs.«132678_g3659312136369_retrytranche1_448_5_alg».proof.Pre_finite_inputs
import proofs.«132678_g3659312136369_retrytranche1_448_5_alg».proof.Proof.LibFinite
import Idealize.ShloMosaic.Lib.ReduceAll

noncomputable section

namespace Cert.Pool.Finite

open Idealize.ShloMosaic Idealize.ShloMosaic.ValueIdx Cert.Pre_finite_inputs

theorem real_of_fn [Cert.Pre_finite_inputs.Facts] (a0 : FVec Ideal S20000x256 .f32) (a1 a2 : FVec Ideal S15000x256 .f32)
    (a3 : FVec Ideal S256x256 .f32) (a4 : FVec Ideal S256 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- The answer bit, read at the one index of the scalar shape, with the chain of bindings substituted.
  have h0 := congrFun h ix0
  dsimp only [Cert.Pre_finite_inputs.fn, Cert.Pre_finite_inputs.fn_part1] at h0
  -- The bit is the conjunction ((((t0 and t1) and t2) and t3) and t4) of the five tests, taken pointwise;
  -- a conjunction of one-bit words is one exactly when both words are.
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  -- Each test that answers one makes every entry of its array a coerced real.
  exact ⟨Cert.LibFinite.real_of_all a0 Facts.bcast_S_S20000x256 Facts.reducesTo_S20000x256_S_d0_1 Facts.h_S_ e0,
    Cert.LibFinite.real_of_all a1 Facts.bcast_S_S15000x256 Facts.reducesTo_S15000x256_S_d0_1 Facts.h_S_ e1,
    Cert.LibFinite.real_of_all a2 Facts.bcast_S_S15000x256 Facts.reducesTo_S15000x256_S_d0_1 Facts.h_S_ e2,
    Cert.LibFinite.real_of_all a3 Facts.bcast_S_S256x256 Facts.reducesTo_S256x256_S_d0_1 Facts.h_S_ e3,
    Cert.LibFinite.real_of_all a4 Facts.bcast_S_S256 Facts.reducesTo_S256_S_d0 Facts.h_S_ e4⟩

end Cert.Pool.Finite

end
-- ==== Proof.KernelValue.lean ====
/-
  The kernel's result at the ideal instance, on finite inputs: the pooled readout.

  Finite inputs are arrays of real numbers. By induction over the grid's 25 steps, after step n the carried triple of
  every column j stands in the running-softmax relation to the column's true sums over the rows seen up to step n: the
  first step starts from (minus infinity, 0, 0) and nothing seen; every step adds its three tiles. After the last step
  the true sums are those over all nodes, the normaliser is positive, and s / z is the column's weighted sum; the last
  step stores the sum of these over the columns, and the reshape after the region hands that one entry on.
-/
import proofs.«132678_g3659312136369_retrytranche1_448_5_alg».proof.Defs
import proofs.«132678_g3659312136369_retrytranche1_448_5_alg».proof.Proof.Carried
import proofs.«132678_g3659312136369_retrytranche1_448_5_alg».proof.Proof.Blocks
import proofs.«132678_g3659312136369_retrytranche1_448_5_alg».proof.Proof.PointStep
import proofs.«132678_g3659312136369_retrytranche1_448_5_alg».proof.Proof.PointOut
import proofs.«132678_g3659312136369_retrytranche1_448_5_alg».proof.Proof.Tail
import proofs.«132678_g3659312136369_retrytranche1_448_5_alg».proof.Proof.Finite
import proofs.«132678_g3659312136369_retrytranche1_448_5_alg».proof.Proof.Gen.Pre_finite_inputs

noncomputable section

namespace Cert.KernelIdeal.Value

open Cert.KernelIdeal Cert.KernelIdeal.Gen Cert.KernelIdeal.Step Cert.KernelIdeal.Carried Cert.Pool
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The inputs as real arrays -/

def x0r (c : Dev nD) : Fin 20000 → Fin 256 → ℝ := fun r k => EReal.toReal (m ((c.tc : Thread nD τ).loc main_arg0) (ix2 r k))
def x1r (c : Dev nD) : Fin 15000 → Fin 256 → ℝ := fun r k => EReal.toReal (m ((c.tc : Thread nD τ).loc main_arg1) (ix2 r k))
def x2r (c : Dev nD) : Fin 15000 → Fin 256 → ℝ := fun r k => EReal.toReal (m ((c.tc : Thread nD τ).loc main_arg2) (ix2 r k))
def wr (c : Dev nD) : Fin 256 → Fin 256 → ℝ := fun k j => EReal.toReal (m ((c.tc : Thread nD τ).loc main_arg3) (ix2 k j))
def br (c : Dev nD) : Fin 256 → ℝ := fun j => EReal.toReal (m ((c.tc : Thread nD τ).loc main_arg4) (ix1 j))

/-- Every entry of every input is the real number read off it. -/
structure RealIn (c : Dev nD) : Prop where
  h0 : ∀ r k, m ((c.tc : Thread nD τ).loc main_arg0) (ix2 r k) = ((x0r m c r k : ℝ) : EReal)
  h1 : ∀ r k, m ((c.tc : Thread nD τ).loc main_arg1) (ix2 r k) = ((x1r m c r k : ℝ) : EReal)
  h2 : ∀ r k, m ((c.tc : Thread nD τ).loc main_arg2) (ix2 r k) = ((x2r m c r k : ℝ) : EReal)
  hw : ∀ k j, m ((c.tc : Thread nD τ).loc main_arg3) (ix2 k j) = ((wr m c k j : ℝ) : EReal)
  hb : ∀ j, m ((c.tc : Thread nD τ).loc main_arg4) (ix1 j) = ((br m c j : ℝ) : EReal)

theorem coe_toReal_of_real {a : EReal} (h : ∃ r : ℝ, a = (r : EReal)) : a = ((EReal.toReal a : ℝ) : EReal) := by
  obtain ⟨r, rfl⟩ := h
  rw [EReal.toReal_coe]

/-- Under the precondition the inputs are real arrays. -/
theorem realIn_of_pre (hpre : Cert.Pre_KernelIdeal m) (c : Dev nD) : RealIn m c := by
  obtain ⟨f0, f1, f2, f3, f4⟩ := Cert.Pool.Finite.real_of_fn _ _ _ _ _ (hpre c)
  exact ⟨fun r k => coe_toReal_of_real (f0 _), fun r k => coe_toReal_of_real (f1 _), fun r k => coe_toReal_of_real (f2 _),
    fun k j => coe_toReal_of_real (f3 _), fun j => coe_toReal_of_real (f4 _)⟩

/-! ## One step -/

/-- A step keeps the running-softmax relation of column j, adding the step's share of the column's sums. -/
theorem step_inv (c : Dev nD) (hr : RealIn m c) (t : Fin cfg0.N) (ht : t.val < 25) (j : Fin 256)
    (pm pz ps : FVec Ideal S1x256 .f32) (A B : ℝ)
    (hinv : Inv (pm (ix2 (0 : Fin 1) j)) (pz (ix2 (0 : Fin 1) j)) (ps (ix2 (0 : Fin 1) j)) A B) :
    Inv (stepM (F := Ideal) pm (blk3 m c t) (blk4 m c t) (blk0 m c t) (blk1 m c t) (blk2 m c t) (ix2 (0 : Fin 1) j))
      (stepZ (F := Ideal) pm pz (blk3 m c t) (blk4 m c t) (blk0 m c t) (blk1 m c t) (blk2 m c t) (ix2 (0 : Fin 1) j))
      (stepS (F := Ideal) pm ps (blk3 m c t) (blk4 m c t) (blk0 m c t) (blk1 m c t) (blk2 m c t) (ix2 (0 : Fin 1) j))
      (A + stepA (x0r m c) (x1r m c) (x2r m c) (wr m c) (br m c) t.val j)
      (B + stepB (x0r m c) (x1r m c) (x2r m c) (wr m c) (br m c) t.val j) := by
  rw [stepA_of_lt _ _ _ _ _ t.val ht j, stepB_of_lt _ _ _ _ _ t.val ht j]
  exact PointStep.point_inv pm pz ps (blk3 m c t) (blk4 m c t) (blk0 m c t) (blk1 m c t) (blk2 m c t) (wr m c) (br m c)
    (tile0 (x0r m c) ⟨t.val, ht⟩) (tile1 (x1r m c) ⟨t.val, ht⟩) (tile2 (x2r m c) ⟨t.val, ht⟩)
    (fun k j => (Blocks.iblk3_apply m c t k j).trans (hr.hw k j))
    (fun j => (Blocks.iblk4_apply m c t j).trans (hr.hb j))
    (fun r k => (Blocks.iblk0_apply m c t r k ⟨800 * t.val + r.val, by have := r.isLt; omega⟩ rfl).trans (hr.h0 _ k))
    (fun r k => (Blocks.iblk1_apply m c t r k ⟨600 * t.val + r.val, by have := r.isLt; omega⟩ rfl).trans (hr.h1 _ k))
    (fun r k => (Blocks.iblk2_apply m c t r k ⟨600 * t.val + r.val, by have := r.isLt; omega⟩ rfl).trans (hr.h2 _ k))
    j A B hinv

/-! ## All steps -/

/-- After step n the carried triple of column j stands in the relation to the sums over the rows seen so far. -/
theorem inv_at (c : Dev nD) (hr : RealIn m c) : ∀ (n : ℕ) (hn : n < cfg0.N) (j : Fin 256),
    Inv ((outsAt0 m c n hn).2.1 (ix2 (0 : Fin 1) j)) ((outsAt0 m c n hn).2.2.1 (ix2 (0 : Fin 1) j))
      ((outsAt0 m c n hn).2.2.2 (ix2 (0 : Fin 1) j))
      (accA (x0r m c) (x1r m c) (x2r m c) (wr m c) (br m c) n j) (accB (x0r m c) (x1r m c) (x2r m c) (wr m c) (br m c) n j)
  | 0, hn, j => by
    obtain ⟨e0, e1, e2⟩ := Carried.first m c ⟨0, hn⟩ rfl (by show ¬(0 : ℕ) % 25 = 24; decide)
    have key := step_inv m c hr ⟨0, hn⟩ (by show (0 : ℕ) < 25; decide) j (k0_pay3 (F := Ideal)) (k0_pay4 (F := Ideal)) (k0_pay5 (F := Ideal)) 0 0
      (PointOut.init_inv j)
    rw [← e0, ← e1, ← e2, zero_add, zero_add] at key
    rw [accA_zero, accB_zero]
    exact key
  | n + 1, hn, j => by
    have hN : n + 1 < 25 := lt_of_lt_of_eq hn N_0
    have ih := inv_at c hr n (Nat.lt_of_succ_lt hn) j
    obtain ⟨e0, e1, e2⟩ := Carried.later m c ⟨n + 1, hn⟩ (by show ¬(n + 1) % 25 = 0; omega)
    have key := step_inv m c hr ⟨n + 1, hn⟩ hN j (prevM m c ⟨n + 1, hn⟩) (prevZ m c ⟨n + 1, hn⟩) (prevS m c ⟨n + 1, hn⟩) _ _ ih
    rw [← e0, ← e1, ← e2] at key
    rw [accA_succ, accB_succ]
    exact key

/-! ## The result -/

/-- The last step's result block holds the pooled readout. -/
theorem out_value (c : Dev nD) (hr : RealIn m c) (hN : 24 < cfg0.N) (i : S1x1.Idx) :
    (outsAt0 m c (⟨24, hN⟩ : Fin cfg0.N).val (⟨24, hN⟩ : Fin cfg0.N).isLt).1 i = ((pooled (x0r m c) (x1r m c) (x2r m c) (wr m c) (br m c) : ℝ) : EReal) := by
  have h0 : ¬(⟨24, hN⟩ : Fin cfg0.N).val % 25 = 0 := by show ¬(24 : ℕ) % 25 = 0; decide
  have h1 : (⟨24, hN⟩ : Fin cfg0.N).val % 25 = 24 := by show (24 : ℕ) % 25 = 24; decide
  have e := Carried.last m c ⟨24, hN⟩ h0 h1
  obtain ⟨e0, e1, e2⟩ := Carried.later m c ⟨24, hN⟩ h0
  have hcol : ∀ j : Fin 256,
      Ideal.div ((outsAt0 m c (⟨24, hN⟩ : Fin cfg0.N).val (⟨24, hN⟩ : Fin cfg0.N).isLt).2.2.2 (ix2 (0 : Fin 1) j))
        ((outsAt0 m c (⟨24, hN⟩ : Fin cfg0.N).val (⟨24, hN⟩ : Fin cfg0.N).isLt).2.2.1 (ix2 (0 : Fin 1) j))
        = ((colB (x0r m c) (x1r m c) (x2r m c) (wr m c) (br m c) j / colA (x0r m c) (x1r m c) (x2r m c) (wr m c) (br m c) j : ℝ) : EReal) := by
    intro j
    have h := inv_at m c hr (⟨24, hN⟩ : Fin cfg0.N).val (⟨24, hN⟩ : Fin cfg0.N).isLt j
    have hA : accA (x0r m c) (x1r m c) (x2r m c) (wr m c) (br m c) (⟨24, hN⟩ : Fin cfg0.N).val j = colA (x0r m c) (x1r m c) (x2r m c) (wr m c) (br m c) j :=
      accA_last _ _ _ _ _ j
    have hB : accB (x0r m c) (x1r m c) (x2r m c) (wr m c) (br m c) (⟨24, hN⟩ : Fin cfg0.N).val j = colB (x0r m c) (x1r m c) (x2r m c) (wr m c) (br m c) j :=
      accB_last _ _ _ _ _ j
    rw [hA, hB] at h
    exact final_col _ _ _ _ _ (colA_pos _ _ _ _ _ j) h
  have hsum : outV (F := Ideal) (prevM m c ⟨24, hN⟩) (prevZ m c ⟨24, hN⟩) (prevS m c ⟨24, hN⟩) (blk3 m c ⟨24, hN⟩) (blk4 m c ⟨24, hN⟩)
      (blk0 m c ⟨24, hN⟩) (blk1 m c ⟨24, hN⟩) (blk2 m c ⟨24, hN⟩) i
      = ((pooled (x0r m c) (x1r m c) (x2r m c) (wr m c) (br m c) : ℝ) : EReal) := by
    rw [PointOut.out_apply, ← e1, ← e2]
    unfold pooled
    rw [← Cert.LibIdealReal.sum_univ_coe]
    exact Finset.sum_congr rfl fun j _ => hcol j
  exact (congrFun e i).trans hsum

/-- On finite inputs the kernel runs, ends with the pooled readout in its one result entry, and leaves its arguments
    as they were. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v2)
        = (fun _ => ((pooled (x0r m c) (x1r m c) (x2r m c) (wr m c) (br m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hN : 24 < cfg0.N := by rw [show cfg0.N = 25 from N_0]; decide
  refine (θ_run defs _ _).mono (fun r h c => ⟨(h c).1.trans ?_, (h c).2⟩)
    (Tail.run_value m ρ (fun c => fun _ => ((pooled (x0r m c) (x1r m c) (x2r m c) (wr m c) (br m c) : ℝ) : EReal)) hN
      (fun c => funext fun i => out_value m c (realIn_of_pre m hpre c) hN i))
  rfl

end Cert.KernelIdeal.Value

end
-- ==== Proof.LibSumSplit.lean ====
/-
  A finite sum over `Fin c` with `c = a + b` is the sum over its first `a` positions plus the sum over its last `b`.

  This is the law by which a matrix product against a matrix whose rows are two blocks laid one over the other is the
  sum of the two products against the blocks.
-/
import Mathlib.Algebra.BigOperators.Fin

namespace Cert.LibSumSplit

open scoped BigOperators

/-- The sum over `Fin c`, `c = a + b`, split at `a`: position `k < a` on the left, position `a + k` on the right. -/
theorem sum_split {M : Type} [AddCommMonoid M] (a b c : Nat) (h : c = a + b) (f : Fin c → M) :
    ∑ k : Fin c, f k
      = (∑ k : Fin a, f ⟨k.val, by have := k.isLt; omega⟩) + ∑ k : Fin b, f ⟨a + k.val, by have := k.isLt; omega⟩ := by
  subst h
  exact Fin.sum_univ_add f

end Cert.LibSumSplit
-- ==== Proof.RefValue.lean ====
/-
  The reference at the ideal instance, on real inputs: its one result entry is the pooled readout.

  Row n of the concatenation is row n of the first array for n < 20000, row n - 20000 of the second for n < 35000, and
  row n - 35000 of the third otherwise. The column maximum the softmax subtracts is some real number; the quotient does
  not depend on which.

  Stage by stage every entry is a coerced real. The concatenation at (n, k) is the real concatenation X n k. The
  product with the weights plus the bias at (n, j) is the logit g n j of row n of X. The maximum over the rows, folded
  from minus infinity over a non-empty range of reals, is a real M j, and the further maximum with minus infinity
  leaves it. The exponential of the difference is exp (g n j - M j); its sum over the rows is a positive real, so the
  quotient is the real quotient; weighted by X n j and summed over the rows this is B j / A j for the sums
  A j = sum of exp (g n j) and B j = sum of X n j * exp (g n j) over all 50000 rows, whatever M j is. A sum over the
  50000 rows of a function of the row is the sum over the three arrays' rows, so A and B are the specification's column
  sums, and the sum over the columns is the readout.
-/
import proofs.«132678_g3659312136369_retrytranche1_448_5_alg».proof.Proof.Gen.ReferenceIdeal.Read
import proofs.«132678_g3659312136369_retrytranche1_448_5_alg».proof.Proof.PoolSpec
import proofs.«132678_g3659312136369_retrytranche1_448_5_alg».proof.Proof.PoolMath
import proofs.«132678_g3659312136369_retrytranche1_448_5_alg».proof.Proof.LibIdealReal
import proofs.«132678_g3659312136369_retrytranche1_448_5_alg».proof.Proof.LibSumSplit

noncomputable section

namespace Cert.ReferenceIdeal.RefValue

open Cert.ReferenceIdeal Cert.ReferenceIdeal.Gen Idealize.ShloMosaic Idealize.ShloMosaic.ValueIdx Cert.Pool

/-! ## Indices: each stage's operand index, at an index given by its coordinates -/

/-- The left operand of the product at (n, j), term k, is read at (n, k). -/
private theorem lidx_v1 (n : Fin 50000) (j k : Fin 256) : Read.lidx_main_v1 (ix2 n j) k = ix2 n k := by
  funext a; match a with | ⟨0, _⟩ => rfl | ⟨1, _⟩ => rfl

/-- The right operand of the product at (n, j), term k, is read at (k, j). -/
private theorem ridx_v1 (n : Fin 50000) (j k : Fin 256) : Read.ridx_main_v1 (ix2 n j) k = ix2 k j := by
  funext a; match a with | ⟨0, _⟩ => rfl | ⟨1, _⟩ => rfl

/-- The bias broadcast to (n, j) is read at j. -/
private theorem idx_v2_v3 (n : Fin 50000) (j : Fin 256) : Read.idx_main_v2 (Read.idx_main_v3 (ix2 n j)) = ix1 j := by
  funext a; match a with | ⟨0, _⟩ => rfl

/-- The column maximum broadcast to (n, j) is read at j. -/
private theorem idx_v8_v9 (n : Fin 50000) (j : Fin 256) : Read.idx_main_v8 (Read.idx_main_v9 (ix2 n j)) = ix1 j := by
  funext a; match a with | ⟨0, _⟩ => rfl

/-- The column normaliser broadcast to (n, j) is read at j. -/
private theorem idx_v13_v14 (n : Fin 50000) (j : Fin 256) : Read.idx_main_v13 (Read.idx_main_v14 (ix2 n j)) = ix1 j := by
  funext a; match a with | ⟨0, _⟩ => rfl

/-- Term n of the first sum over the rows at column j is read at (n, j). -/
private theorem idx_v12 (j : Fin 256) (n : Fin 50000) : Read.idx_main_v12 (ix1 j) n = ix2 n j := by
  funext a; match a with | ⟨0, _⟩ => rfl | ⟨1, _⟩ => rfl

/-- Term n of the second sum over the rows at column j is read at (n, j). -/
private theorem idx_v17 (j : Fin 256) (n : Fin 50000) : Read.idx_main_v17 (ix1 j) n = ix2 n j := by
  funext a; match a with | ⟨0, _⟩ => rfl | ⟨1, _⟩ => rfl

/-- Term k of the sum over the columns is read at k. -/
private theorem idx_v18_v19 (i : S1.Idx) (k : Fin 256) : Read.idx_main_v18 (Read.idx_main_v19 i k) = ix1 k := by
  funext a; match a with | ⟨0, _⟩ => rfl

/-! ## The concatenation -/

/-- Row n of the three real arrays laid one over the other. -/
private def xcat (x0 : Fin 20000 → Fin 256 → ℝ) (x1 x2 : Fin 15000 → Fin 256 → ℝ) (n : Fin 50000) : Fin 256 → ℝ :=
  if c0 : n.val < 20000 then x0 ⟨n.val, c0⟩
  else if c1 : n.val < 35000 then x1 ⟨n.val - 20000, by omega⟩
  else x2 ⟨n.val - 35000, by have := n.isLt; omega⟩

/-- The first 20000 rows are the first array's. -/
private theorem xcat_fst (x0 : Fin 20000 → Fin 256 → ℝ) (x1 x2 : Fin 15000 → Fin 256 → ℝ) (r : Fin 20000)
    (h : r.val < 50000) : xcat x0 x1 x2 ⟨r.val, h⟩ = x0 r := by
  unfold xcat; rw [dif_pos (show (⟨r.val, h⟩ : Fin 50000).val < 20000 from r.isLt)]

/-- The next 15000 rows are the second array's. -/
private theorem xcat_snd (x0 : Fin 20000 → Fin 256 → ℝ) (x1 x2 : Fin 15000 → Fin 256 → ℝ) (r : Fin 15000)
    (h : 20000 + r.val < 50000) : xcat x0 x1 x2 ⟨20000 + r.val, h⟩ = x1 r := by
  have hr := r.isLt
  unfold xcat
  rw [dif_neg (show ¬(⟨20000 + r.val, h⟩ : Fin 50000).val < 20000 by show ¬20000 + r.val < 20000; omega),
    dif_pos (show (⟨20000 + r.val, h⟩ : Fin 50000).val < 35000 by show 20000 + r.val < 35000; omega)]
  exact congrArg x1 (Fin.ext (by show 20000 + r.val - 20000 = r.val; omega))

/-- The last 15000 rows are the third array's. -/
private theorem xcat_trd (x0 : Fin 20000 → Fin 256 → ℝ) (x1 x2 : Fin 15000 → Fin 256 → ℝ) (r : Fin 15000)
    (h : 20000 + (15000 + r.val) < 50000) : xcat x0 x1 x2 ⟨20000 + (15000 + r.val), h⟩ = x2 r := by
  have hr := r.isLt
  unfold xcat
  rw [dif_neg (show ¬(⟨20000 + (15000 + r.val), h⟩ : Fin 50000).val < 20000 by
      show ¬20000 + (15000 + r.val) < 20000; omega),
    dif_neg (show ¬(⟨20000 + (15000 + r.val), h⟩ : Fin 50000).val < 35000 by
      show ¬20000 + (15000 + r.val) < 35000; omega)]
  exact congrArg x2 (Fin.ext (by show 20000 + (15000 + r.val) - 35000 = r.val; omega))

/-- A sum over the 50000 rows of a function of the row is the sum over the three arrays' rows. -/
private theorem sum_xcat (x0 : Fin 20000 → Fin 256 → ℝ) (x1 x2 : Fin 15000 → Fin 256 → ℝ) (F : (Fin 256 → ℝ) → ℝ) :
    ∑ n : Fin 50000, F (xcat x0 x1 x2 n)
      = (∑ r : Fin 20000, F (x0 r)) + (∑ r : Fin 15000, F (x1 r)) + ∑ r : Fin 15000, F (x2 r) := by
  rw [LibSumSplit.sum_split 20000 30000 50000 (by norm_num), LibSumSplit.sum_split 15000 15000 30000 (by norm_num),
    ← add_assoc]
  refine congrArg₂ (· + ·) (congrArg₂ (· + ·) ?_ ?_) ?_
  · exact Finset.sum_congr rfl fun r _ => congrArg F (xcat_fst x0 x1 x2 r _)
  · exact Finset.sum_congr rfl fun r _ => congrArg F (xcat_snd x0 x1 x2 r _)
  · exact Finset.sum_congr rfl fun r _ => congrArg F (xcat_trd x0 x1 x2 r _)

/-- The concatenation at (n, k) is the coerced real concatenation: the piece whose rows hold n, read at the row's
    place in it. -/
private theorem v0_at (a0 : FVec Ideal S20000x256 .f32) (a1 a2 : FVec Ideal S15000x256 .f32)
    (x0 : Fin 20000 → Fin 256 → ℝ) (x1 x2 : Fin 15000 → Fin 256 → ℝ)
    (h0 : ∀ r k, a0 (ix2 r k) = ((x0 r k : ℝ) : EReal)) (h1 : ∀ r k, a1 (ix2 r k) = ((x1 r k : ℝ) : EReal))
    (h2 : ∀ r k, a2 (ix2 r k) = ((x2 r k : ℝ) : EReal)) (n : Fin 50000) (k : Fin 256) :
    Read.val_main_v0 (F := Ideal) a0 a1 a2 (ix2 n k) = ((xcat x0 x1 x2 n k : ℝ) : EReal) := by
  have hn := n.isLt
  unfold Read.val_main_v0 xcat
  by_cases c0 : n.val < 20000
  · rw [dif_pos c0, ← h0]
    refine concatenate_apply_piece (0 : Fin S50000x256.rank) _ _ (ix2 n k) 0 (by show 0 < 3; omega) S20000x256 a0 rfl rfl 0 rfl
      (ix2 ⟨n.val, c0⟩ k) (fun b hb => ?_) ?_
    · match b with
      | ⟨0, _⟩ => exact absurd rfl hb
      | ⟨1, _⟩ => rfl
    · exact Nat.zero_add _
  · rw [dif_neg c0]
    by_cases c1 : n.val < 35000
    · rw [dif_pos c1, ← h1]
      refine concatenate_apply_piece (0 : Fin S50000x256.rank) _ _ (ix2 n k) 1 (by show 1 < 3; omega) S15000x256 a1 rfl rfl 20000 rfl
        (ix2 ⟨n.val - 20000, by omega⟩ k) (fun b hb => ?_) ?_
      · match b with
        | ⟨0, _⟩ => exact absurd rfl hb
        | ⟨1, _⟩ => rfl
      · show 20000 + (n.val - 20000) = n.val; omega
    · rw [dif_neg c1, ← h2]
      refine concatenate_apply_piece (0 : Fin S50000x256.rank) _ _ (ix2 n k) 2 (by show 2 < 3; omega) S15000x256 a2 rfl rfl 35000 rfl
        (ix2 ⟨n.val - 35000, by omega⟩ k) (fun b hb => ?_) ?_
      · match b with
        | ⟨0, _⟩ => exact absurd rfl hb
        | ⟨1, _⟩ => rfl
      · show 35000 + (n.val - 35000) = n.val; omega

/-! ## The maximum over the rows -/

/-- Column j's result index with row n put back is (n, j). -/
private theorem lift_rows (hR : S50000x256.Reduces [0] S256) (j : Fin 256) (n : Fin (S50000x256.size 0)) :
    hR.lift (ix1 j) n = ix2 (⟨n.val, n.isLt⟩ : Fin 50000) j := by
  funext c; apply Fin.ext
  match c with
  | ⟨0, _⟩ => rfl
  | ⟨1, _⟩ => rfl

/-- The maximum over the rows of an array of coerced reals, folded from minus infinity, is a coerced real in every
    column: there are rows. -/
private theorem maxReduce_at (y : FVec Ideal S50000x256 .f32) (g : Fin 50000 → Fin 256 → ℝ)
    (hy : ∀ n j, y (ix2 n j) = ((g n j : ℝ) : EReal)) (j : Fin 256) :
    ∃ M : ℝ, Host.reduce FloatOps.maximumf y (Read.val_main_cst (F := Ideal)) reducesTo_S50000x256_S256_d0 h_S_ (ix1 j)
      = ((M : ℝ) : EReal) := by
  have hR : S50000x256.Reduces [0] S256 := by decide
  rw [Host.reduce_eq_fold_single FloatOps.maximumf y _ reducesTo_S50000x256_S256_d0 hR h_S_]
  have hbot : Read.val_main_cst (F := Ideal) (Shape.Idx.first h_S_) = (⊥ : EReal) := LibIdealReal.ofBits_neg_inf
  rw [hbot]
  exact ⟨_, LibIdealReal.fold_maximumf_bot_of_eq Finset.univ ⟨⟨0, by decide⟩, Finset.mem_univ _⟩ _
    (fun n => g ⟨n.val, n.isLt⟩ j) (fun n => by
      show y (hR.lift (ix1 j) n) = _
      rw [lift_rows hR j n, hy])⟩

/-! ## The column sums over the concatenation are the specification's -/

/-- The normaliser over the 50000 rows is the specification's: the three arrays' shares. -/
private theorem sumA (x0 : Fin 20000 → Fin 256 → ℝ) (x1 x2 : Fin 15000 → Fin 256 → ℝ) (w : Fin 256 → Fin 256 → ℝ)
    (b : Fin 256 → ℝ) (j : Fin 256) :
    ∑ n : Fin 50000, Real.exp (logit (xcat x0 x1 x2) w b n j) = colA x0 x1 x2 w b j :=
  sum_xcat x0 x1 x2 fun row => Real.exp ((∑ k : Fin 256, row k * w k j) + b j)

/-- The weighted feature sum over the 50000 rows is the specification's. -/
private theorem sumB (x0 : Fin 20000 → Fin 256 → ℝ) (x1 x2 : Fin 15000 → Fin 256 → ℝ) (w : Fin 256 → Fin 256 → ℝ)
    (b : Fin 256 → ℝ) (j : Fin 256) :
    ∑ n : Fin 50000, xcat x0 x1 x2 n j * Real.exp (logit (xcat x0 x1 x2) w b n j) = colB x0 x1 x2 w b j :=
  sum_xcat x0 x1 x2 fun row => row j * Real.exp ((∑ k : Fin 256, row k * w k j) + b j)

/-! ## The result -/

theorem result_eq (a0 : FVec Ideal S20000x256 .f32) (a1 a2 : FVec Ideal S15000x256 .f32) (a3 : FVec Ideal S256x256 .f32)
    (a4 : FVec Ideal S256 .f32)
    (x0 : Fin 20000 → Fin 256 → ℝ) (x1 x2 : Fin 15000 → Fin 256 → ℝ) (w : Fin 256 → Fin 256 → ℝ) (b : Fin 256 → ℝ)
    (h0 : ∀ r k, a0 (ix2 r k) = ((x0 r k : ℝ) : EReal)) (h1 : ∀ r k, a1 (ix2 r k) = ((x1 r k : ℝ) : EReal))
    (h2 : ∀ r k, a2 (ix2 r k) = ((x2 r k : ℝ) : EReal)) (hw : ∀ k j, a3 (ix2 k j) = ((w k j : ℝ) : EReal))
    (hb : ∀ j, a4 (ix1 j) = ((b j : ℝ) : EReal)) :
    Cert.ReferenceIdeal.Read.val_main_v19 (F := Ideal) a0 a1 a2 a3 a4 = fun _ => ((pooled x0 x1 x2 w b : ℝ) : EReal) := by
  -- the concatenation, entry by entry
  have hv0 := v0_at a0 a1 a2 x0 x1 x2 h0 h1 h2
  -- the logits: the row times a column of the weights, plus the bias
  have hv4 : ∀ (n : Fin 50000) (j : Fin 256), Read.val_main_v4 (F := Ideal) a0 a1 a2 a3 a4 (ix2 n j)
      = ((logit (xcat x0 x1 x2) w b n j : ℝ) : EReal) := by
    intro n j
    rw [Read.val_main_v4_apply, Read.val_main_v1_apply, Read.val_main_v3_apply, Read.val_main_v2_apply, idx_v2_v3, hb,
      Ideal.addf_def]
    unfold logit
    rw [← LibIdealReal.add_coe]
    refine congrArg (· + _) (LibIdealReal.sum_of_eq Finset.univ _ _ fun k _ => ?_)
    rw [lidx_v1, ridx_v1, hv0, hw, LibIdealReal.mul_coe]
  -- the column maximum is some real; the maximum with minus infinity leaves it
  have hmax : ∀ j : Fin 256, ∃ M : ℝ, Read.val_main_v7 (F := Ideal) a0 a1 a2 a3 a4 (ix1 j) = ((M : ℝ) : EReal) := by
    intro j
    obtain ⟨M, hM⟩ := maxReduce_at (Read.val_main_v4 (F := Ideal) a0 a1 a2 a3 a4) _ hv4 j
    refine ⟨M, ?_⟩
    rw [Read.val_main_v7_apply, Read.val_main_v6_apply, Read.val_main_cst_0_apply, Ideal.ofBits_def, Ideal.maximumf_def,
      LibIdealReal.ofBits_neg_inf, max_bot_left]
    exact hM
  choose M hM using hmax
  -- the shifted exponentials
  have hv11 : ∀ (n : Fin 50000) (j : Fin 256), Read.val_main_v11 (F := Ideal) a0 a1 a2 a3 a4 (ix2 n j)
      = ((Real.exp (logit (xcat x0 x1 x2) w b n j - M j) : ℝ) : EReal) := by
    intro n j
    rw [Read.val_main_v11_apply, Read.val_main_v10_apply, Read.val_main_v9_apply, Read.val_main_v8_apply, idx_v8_v9, hv4, hM,
      Ideal.subf_def, Ideal.hostUnary_exp_def, LibIdealReal.sub_coe, LibIdealReal.exp_coe]
  -- their sum over the rows, from zero
  have hv12 : ∀ j : Fin 256, Read.val_main_v12 (F := Ideal) a0 a1 a2 a3 a4 (ix1 j)
      = ((∑ n : Fin 50000, Real.exp (logit (xcat x0 x1 x2) w b n j - M j) : ℝ) : EReal) := by
    intro j
    rw [Read.val_main_v12_apply, Read.val_main_cst_1_apply, Ideal.ofBits_def, LibIdealReal.ofBits_zero, zero_add]
    refine LibIdealReal.sum_of_eq Finset.univ _ _ fun n _ => ?_
    rw [idx_v12, hv11]
  -- the sum is positive, so the quotient is the real quotient; then the weight by the feature
  have hZ : ∀ j : Fin 256, 0 < ∑ n : Fin 50000, Real.exp (logit (xcat x0 x1 x2) w b n j - M j) := fun j =>
    Finset.sum_pos (fun n _ => Real.exp_pos _) ⟨⟨0, by norm_num⟩, Finset.mem_univ _⟩
  have hv16 : ∀ (n : Fin 50000) (j : Fin 256), Read.val_main_v16 (F := Ideal) a0 a1 a2 a3 a4 (ix2 n j)
      = ((xcat x0 x1 x2 n j * (Real.exp (logit (xcat x0 x1 x2) w b n j - M j)
          / ∑ n' : Fin 50000, Real.exp (logit (xcat x0 x1 x2) w b n' j - M j)) : ℝ) : EReal) := by
    intro n j
    rw [Read.val_main_v16_apply, Read.val_main_v15_apply, Read.val_main_v14_apply, Read.val_main_v13_apply, idx_v13_v14, hv0,
      hv11, hv12, Ideal.hostDivf_def, Ideal.mulf_def, LibIdealReal.div_coe _ (ne_of_gt (hZ j)), LibIdealReal.mul_coe]
  -- a column's weighted sum is B / A, whatever the shift
  have hA : ∀ j : Fin 256, 0 < ∑ n : Fin 50000, Real.exp (logit (xcat x0 x1 x2) w b n j) := fun j =>
    Finset.sum_pos (fun n _ => Real.exp_pos _) ⟨⟨0, by norm_num⟩, Finset.mem_univ _⟩
  have hv17 : ∀ j : Fin 256, Read.val_main_v17 (F := Ideal) a0 a1 a2 a3 a4 (ix1 j)
      = ((colB x0 x1 x2 w b j / colA x0 x1 x2 w b j : ℝ) : EReal) := by
    intro j
    rw [Read.val_main_v17_apply, Read.val_main_cst_2_apply, Ideal.ofBits_def, LibIdealReal.ofBits_zero, zero_add,
      ← sumA x0 x1 x2 w b j, ← sumB x0 x1 x2 w b j,
      ← ref_col (fun n => logit (xcat x0 x1 x2) w b n j) (fun n => xcat x0 x1 x2 n j) (M j) (hA j)]
    refine LibIdealReal.sum_of_eq Finset.univ _ _ fun n _ => ?_
    rw [idx_v17, hv16]
  -- the sum over the columns
  funext i
  rw [Read.val_main_v19_apply, Read.val_main_cst_3_apply, Ideal.ofBits_def, LibIdealReal.ofBits_zero, zero_add]
  unfold pooled
  refine LibIdealReal.sum_of_eq Finset.univ _ _ fun k _ => ?_
  rw [Read.val_main_v18_apply, idx_v18_v19, hv17]

end Cert.ReferenceIdeal.RefValue

end
-- ==== Proof.lean ====
/-
  The certificate: a fused one-pass global attention pooling kernel against its plain reference, over the reals.

  The reference concatenates three node-feature arrays, computes gate logits with one weight matrix and a bias,
  normalises them by a softmax over all nodes column by column, weights each node's features by its gate and sums
  over the nodes and then over the columns. The kernel never forms the gates: over a grid of 25 steps it meets
  800 + 600 + 600 rows at a time and carries, per column, a running maximum, a running normaliser and a running
  weighted feature sum, rescaling the two sums whenever the maximum rises; the last step divides and adds up the
  columns. Over the reals a column's softmax-weighted sum is the quotient of two sums over the nodes whatever shift is
  used inside the exponentials, and the carried sums are those two sums scaled by a common factor, so both programs
  compute the same number. The frames of the two kernel programs are the generated ones; the reference's frame is its
  run with the result dropped; the idealization rewrote nothing.
-/
import proofs.«132678_g3659312136369_retrytranche1_448_5_alg».proof.Defs
import proofs.«132678_g3659312136369_retrytranche1_448_5_alg».proof.Proof.Gen.Kernel
import proofs.«132678_g3659312136369_retrytranche1_448_5_alg».proof.Proof.Gen.Kernel.Skeleton
import proofs.«132678_g3659312136369_retrytranche1_448_5_alg».proof.Proof.Gen.Kernel.Launch
import proofs.«132678_g3659312136369_retrytranche1_448_5_alg».proof.Proof.Gen.Kernel.Points
import proofs.«132678_g3659312136369_retrytranche1_448_5_alg».proof.Proof.Gen.Kernel.Frame
import proofs.«132678_g3659312136369_retrytranche1_448_5_alg».proof.Proof.Gen.KernelIdeal
import proofs.«132678_g3659312136369_retrytranche1_448_5_alg».proof.Proof.Gen.KernelIdeal.Skeleton
import proofs.«132678_g3659312136369_retrytranche1_448_5_alg».proof.Proof.Gen.KernelIdeal.Launch
import proofs.«132678_g3659312136369_retrytranche1_448_5_alg».proof.Proof.Gen.KernelIdeal.Points
import proofs.«132678_g3659312136369_retrytranche1_448_5_alg».proof.Proof.Gen.KernelIdeal.Frame
import proofs.«132678_g3659312136369_retrytranche1_448_5_alg».proof.Proof.Gen.ReferenceIdeal
import proofs.«132678_g3659312136369_retrytranche1_448_5_alg».proof.Proof.Gen.Pre_finite_inputs
import proofs.«132678_g3659312136369_retrytranche1_448_5_alg».proof.Proof.Gen.ReferenceIdeal.Run
import proofs.«132678_g3659312136369_retrytranche1_448_5_alg».proof.Proof.Gen.ReferenceIdeal.Read
import proofs.«132678_g3659312136369_retrytranche1_448_5_alg».proof.Proof.KernelValue
import proofs.«132678_g3659312136369_retrytranche1_448_5_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- On finite inputs both programs end with the pooled readout of the same real arrays in their one result entry. -/
theorem algebraic : Cert.algebraic_KernelIdeal_ReferenceIdeal := by
  intro m ρ m' ρ' hpre hagree
  refine ⟨fun c => fun _ => ((Cert.Pool.pooled (Cert.KernelIdeal.Value.x0r m c) (Cert.KernelIdeal.Value.x1r m c)
    (Cert.KernelIdeal.Value.x2r m c) (Cert.KernelIdeal.Value.wr m c) (Cert.KernelIdeal.Value.br m c) : ℝ) : EReal),
    Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  have hr := Cert.KernelIdeal.Value.realIn_of_pre m hpre c
  rw [Cert.ReferenceIdeal.Read.val_main_v19_eq, (hagree c).1, (hagree c).2.1, (hagree c).2.2.1, (hagree c).2.2.2.1,
    (hagree c).2.2.2.2]
  exact Cert.ReferenceIdeal.RefValue.result_eq _ _ _ _ _ _ _ _ _ _ hr.h0 hr.h1 hr.h2 hr.hw hr.hb

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
